-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S4194304 : Shape := ⟨1, ![4194304]⟩
abbrev S4194304x4 : Shape := ⟨2, ![4194304, 4]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel
  bcast_S_S4194304x4 : S_.BroadcastsInDim S4194304x4 (![] : Fin 0 → Fin S4194304x4.rank)
  reducesTo_S4194304x4_S_d0_1 : S4194304x4.ReducesTo [0, 1] S_
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x6 .f32) (main_arg1 : IVec S4194304 32) (main_arg2 : FVec F S4194304x4 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  let main_v4 : FVec F S4194304x4 .f32 := Host.absf main_arg2
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  let main_c_2 : IVec S_ 32 := constantI S_ 32 0#32
  let main_v9 : IVec S4194304 32 := broadcastInDim S4194304 ![] bcast_S_S4194304 main_c_2
  let main_v10 : IVec S4194304 1 := cmpi .sge main_arg1 main_v9
  let main_c_3 : IVec S_ 32 := constantI S_ 32 2#32
  let main_v11 : IVec S4194304 32 := broadcastInDim S4194304 ![] bcast_S_S4194304 main_c_3
  let main_v12 : IVec S4194304 1 := cmpi .slt main_arg1 main_v11
  let main_v13 : IVec S4194304 1 := andi main_v10 main_v12
  let main_c_4 : IVec S_ 1 := constantI S_ 1 1#1
  let main_v14 : IVec S_ 1 := (fun x v => Host.reduce IntOp.andi x v reducesTo_S4194304_S_d0 h_S_) main_v13 main_c_4
  let main_v15 : IVec S_ 1 := andi main_v8 main_v14
  main_v15
-- ==== Kernel.lean ====
abbrev S4194304x6 : Shape := ⟨2, ![4194304, 6]⟩
abbrev S4194304 : Shape := ⟨1, ![4194304]⟩
abbrev S4194304x4 : Shape := ⟨2, ![4194304, 4]⟩
abbrev S2x8x128 : Shape := ⟨3, ![2, 8, 128]⟩
abbrev S4096x6 : Shape := ⟨2, ![4096, 6]⟩
abbrev S4096 : Shape := ⟨1, ![4096]⟩
abbrev S4096x4 : Shape := ⟨2, ![4096, 4]⟩
abbrev S1x8x128 : Shape := ⟨3, ![1, 8, 128]⟩
abbrev S4096x1 : Shape := ⟨2, ![4096, 1]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 29
  | .vmem => 15
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S4194304x4, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S1x1x1, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S_, .f32⟩
  | .hbm, ⟨11, _⟩ => ⟨S1x1x1, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S_, .f32⟩
  | .hbm, ⟨16, _⟩ => ⟨S1x1x1, .f32⟩
  | .hbm, ⟨17, _⟩ => ⟨S_, .f32⟩
  | .hbm, ⟨18, _⟩ => ⟨S1x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S4096x6, .f32⟩
  | .local _ .vmem, ⟨1, _⟩ => ⟨S4096x6, .f32⟩
  | .local _ .vmem, ⟨2, _⟩ => ⟨S4096, .i32⟩
  | .local _ .vmem, ⟨3, _⟩ => ⟨S4096, .i32⟩
  | .local _ .vmem, ⟨4, _⟩ => ⟨S4096x4, .f32⟩
  | .local _ .vmem, ⟨5, _⟩ => ⟨S4096x4, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 512], ![false, false]⟩

def k0_cond2 (i : grid0.Coords) : BitVec 1 :=
  let arg1 : BitVec 32 := BitVec.ofNat 32 (i 1).val
  let c511_i32 : BitVec 32 := 511#32
  let v71 : BitVec 1 := Scalar.cmpi .eq arg1 c511_i32
  let v72 : BitVec 32 := Scalar.extui v71
  let c0_i32_35 : BitVec 32 := 0#32
  let v73 : BitVec 1 := Scalar.cmpi .ne v72 c0_i32_35
  v73

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S4096x6_S4096x1_0_0 : ∀ a, (![0, 0] : Fin 2 → Nat) a + S4096x1.size a ≤ S4096x6.size a
  h_S4096x1 : 0 < S4096x1.numel
  shapeCasts_S4096x1_S4096 : S4096x1.ShapeCasts S4096
  inb_S4096x6_S4096x1_0_1 : ∀ a, (![0, 1] : Fin 2 → Nat) a + S4096x1.size a ≤ S4096x6.size a
  inb_S4096_S4096_0 : ∀ a, (![0] : Fin 1 → Nat) a + S4096.size a ≤ S4096.size a
  h_S4096 : 0 < S4096.numel
  natLt_1_32 : 1 < 32
  inb_S4096x6_S4096x4_0_2 : ∀ a, (![0, 2] : Fin 2 → Nat) a + S4096x4.size a ≤ S4096x6.size a
  h_S4096x4 : 0 < S4096x4.numel
  inb_S4096x4_S4096x4_0_0 : ∀ a, (![0, 0] : Fin 2 → Nat) a + S4096x4.size a ≤ S4096x4.size a
  reduces_S4096x4_S4096 : S4096x4.Reduces [1] S4096
  shapeCasts_S4096_S32x128 : S4096.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  inpos_S1x1_p0_0 : ∀ a, (![0, 0] : Fin 2 → Nat) a < S1x1.size a
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S4194304x6.size a
  hwx0_0 : ∀ i : grid0.Coords, EltTy.bits .f32 = 32 ∨ (Rect.block (s := S4194304x6) S4096x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4194304.size a
  hwx0_1 : ∀ i : grid0.Coords, EltTy.bits .i32 = 32 ∨ (Rect.block (s := S4194304) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S4194304x4.size a
  hwx0_2 : ∀ i : grid0.Coords, EltTy.bits .f32 = 32 ∨ (Rect.block (s := S4194304x4) S4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev win0_0 : Pipeline.Window sig grid0 :=
  Pipeline.Window.ofSpec (Memref.whole main_arg0) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4194304x6 : Shape := ⟨2, ![4194304, 6]⟩
abbrev S4194304 : Shape := ⟨1, ![4194304]⟩
abbrev S4194304x4 : Shape := ⟨2, ![4194304, 4]⟩
abbrev S4194304x2 : Shape := ⟨2, ![4194304, 2]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S4194304x4, .f32⟩
  | .hbm, ⟨3, _⟩ => ⟨S4194304x2, .f32⟩
  | .hbm, ⟨4, _⟩ => ⟨S_, .f32⟩
  | .hbm, ⟨5, _⟩ => ⟨S4194304, .f32⟩
  | .hbm, ⟨6, _⟩ => ⟨S_, .f32⟩
  | .hbm, ⟨7, _⟩ => ⟨S4194304, .f32⟩
  | .hbm, ⟨8, _⟩ => ⟨S4194304, .f32⟩
  | .hbm, ⟨9, _⟩ => ⟨S4194304x1, .f32⟩
  | .hbm, ⟨10, _⟩ => ⟨S4194304x2, .f32⟩
  | .hbm, ⟨11, _⟩ => ⟨S4194304x2, .f32⟩
  | .hbm, ⟨12, _⟩ => ⟨S4194304x2, .f32⟩
  | .hbm, ⟨13, _⟩ => ⟨S_, .f32⟩
  | .hbm, ⟨14, _⟩ => ⟨S4194304, .f32⟩
  | .hbm, ⟨15, _⟩ => ⟨S4194304x1, .f32⟩
  | .hbm, ⟨16, _⟩ => ⟨S4194304x1, .f32⟩
  | .hbm, ⟨17, _⟩ => ⟨S4194304x2, .f32⟩
  | .hbm, ⟨18, _⟩ => ⟨S4194304x2, .f32⟩
  | .hbm, ⟨19, _⟩ => ⟨S4194304x1, .i32⟩
  | .hbm, ⟨20, _⟩ => ⟨S_, .i32⟩
  | .hbm, ⟨21, _⟩ => ⟨S4194304x1, .i32⟩
  | .hbm, ⟨22, _⟩ => ⟨S4194304x1, .i1⟩
  | .hbm, ⟨23, _⟩ => ⟨S_, .i32⟩
  | .hbm, ⟨24, _⟩ => ⟨S4194304x1, .i32⟩
  | .hbm, ⟨25, _⟩ => ⟨S4194304x1, .i32⟩
  | .hbm, ⟨26, _⟩ => ⟨S4194304x1, .i32⟩
  | .hbm, ⟨27, _⟩ => ⟨S4194304x1x1, .i32⟩
  | .hbm, ⟨28, _⟩ => ⟨S1, .i32⟩
  | .hbm, ⟨29, _⟩ => ⟨S_, .i32⟩
  | .hbm, ⟨30, _⟩ => ⟨S4194304x1x1, .i32⟩
  | .hbm, ⟨31, _⟩ => ⟨S4194304x1x1, .i1⟩
  | .hbm, ⟨32, _⟩ => ⟨S1x1x1, .i32⟩
  | .hbm, ⟨33, _⟩ => ⟨S4194304x1x1, .i32⟩
  | .hbm, ⟨34, _⟩ => ⟨S4194304x1x1, .i1⟩
  | .hbm, ⟨35, _⟩ => ⟨S4194304x1x1, .i1⟩
  | .hbm, ⟨36, _⟩ => ⟨S_, .i1⟩
  | .hbm, ⟨37, _⟩ => ⟨S4194304x1, .i1⟩
  | .hbm, ⟨38, _⟩ => ⟨S4194304x1, .f32⟩
  | .hbm, ⟨39, _⟩ => ⟨S_, .f32⟩
  | .hbm, ⟨40, _⟩ => ⟨S4194304x1, .f32⟩
  | .hbm, ⟨41, _⟩ => ⟨S4194304x1, .f32⟩
  | .hbm, ⟨42, _⟩ => ⟨S4194304, .f32⟩
  | .hbm, ⟨43, _⟩ => ⟨S4194304, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i32⟩
  | .hbm, ⟨49, _⟩ => ⟨S4194304, .i32⟩
  | .hbm, ⟨50, _⟩ => ⟨S4194304, .i1⟩
  | .hbm, ⟨51, _⟩ => ⟨S4194304, .f32⟩
  | .hbm, ⟨52, _⟩ => ⟨S4194304x4, .f32⟩
  | .hbm, ⟨53, _⟩ => ⟨S4194304x4, .f32⟩
  | .hbm, ⟨54, _⟩ => ⟨S4194304x4, .f32⟩
  | .hbm, ⟨55, _⟩ => ⟨S_, .f32⟩
  | .hbm, ⟨56, _⟩ => ⟨S4194304, .f32⟩
  | .hbm, ⟨57, _⟩ => ⟨S_, .f32⟩
  | .hbm, ⟨58, _⟩ => ⟨S4194304, .f32⟩
  | .hbm, ⟨59, _⟩ => ⟨S4194304, .f32⟩
  | .hbm, ⟨60, _⟩ => ⟨S4194304, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩
abbrev main_c : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_cst_2 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_cst_4 : Ref sig .tc := ⟨.hbm, 63, rfl⟩
abbrev main_v19 : Ref sig .tc := ⟨.hbm, 64, rfl⟩
abbrev main_cst_5 : Ref sig .tc := ⟨.hbm, 65, rfl⟩
abbrev main_v20 : Ref sig .tc := ⟨.hbm, 66, rfl⟩
abbrev main_cst_6 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩

abbrev nD : Nat := 1
abbrev τ : Topo := Topo.v7x

variable {F : FTy → Type} [FloatOps F]

class Facts₀ : Prop where
  slices_S4194304x6_S4194304x2_0_0 : S4194304x6.Slices ![0, 0] S4194304x2
  reducesTo_S4194304x2_S4194304_d1 : S4194304x2.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  slices_S4194304x6_S4194304x4_0_2 : S4194304x6.Slices ![0, 2] S4194304x4
  reducesTo_S4194304x4_S4194304_d1 : S4194304x4.ReducesTo [1] S4194304
  gather_S4194304x2_S4194304x1x1_S4194304x1_n_1_0_0_1_2_11_wf : GatherDims.WF S4194304x2 S4194304x1x1 S4194304x1 [] [1] [0] [1] [0] 2 ![1, 1]

variable [Facts₀]

def gather_S4194304x2_S4194304x1x1_S4194304x1_n_1_0_0_1_2_11 : GatherDims S4194304x2 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x2_S4194304x1x1_S4194304x1_n_1_0_0_1_2_11_wf

class Facts : Prop extends Facts₀ where

variable [Facts]
-- ==== Proof.Pieces.lean ====
/-
  What one grid point leaves in the three accumulators and, at a half's last tile, in the three output blocks.

  The body reads from the tile's prediction block `x0` (4096 × 6) its two logit columns and its four box columns, the
  class words `x1` and the target boxes `x2` whole. Whatever the case, each accumulator ends the point holding "what it
  held + the tile's sum" — the negative log-likelihoods, the masked box errors, the masks —, where "what it held" is
  zero at a half's first tile (the reset is stored and read back before the update) and the previous tile's result
  otherwise; at a half's last tile each output block receives a copy of its accumulator after the update.
  The statements hold for any reading of the floats; the arithmetic itself is read in `Payload`.
-/
import proofs.«427612_j49185965473872_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.HeadLoss.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first logit column of a prediction tile, as the 4096 × 1 block the body loads. -/
abbrev logit0 (x0 : Vec F S4096x6 .f32) : Vec F S4096x1 .f32 :=
  View.ld x0 (Rect.unit ![0, 0] S4096x1.size inb_S4096x6_S4096x1_0_0)

/-- The second logit column of a prediction tile. -/
abbrev logit1 (x0 : Vec F S4096x6 .f32) : Vec F S4096x1 .f32 :=
  View.ld x0 (Rect.unit ![0, 1] S4096x1.size inb_S4096x6_S4096x1_0_1)

/-- The four box columns (columns 2 to 5) of a prediction tile. -/
abbrev boxCols (x0 : Vec F S4096x6 .f32) : Vec F S4096x4 .f32 :=
  View.ld x0 (Rect.unit ![0, 2] S4096x4.size inb_S4096x6_S4096x4_0_2)

section pieces

variable (c : Dev nD) (i : grid0.Coords) (arg2 : Memref sig .tc .vmem S4096x6 .f32) (harg2 : arg2.IsWhole)
  (arg3 : Memref sig .tc .vmem S4096 .i32) (harg3 : arg3.IsWhole) (arg4 : Memref sig .tc .vmem S4096x4 .f32) (harg4 : arg4.IsWhole)
  (arg5 : Memref sig .tc .vmem S1x8x128 .f32) (harg5 : arg5.IsWhole) (arg6 : Memref sig .tc .vmem S1x8x128 .f32) (harg6 : arg6.IsWhole)
  (arg7 : Memref sig .tc .vmem S1x8x128 .f32) (harg7 : arg7.IsWhole) (arg8 : Memref sig .tc .vmem S1x8x128 .f32) (harg8 : arg8.IsWhole)
  (arg9 : Memref sig .tc .vmem S1x8x128 .f32) (harg9 : arg9.IsWhole) (arg10 : Memref sig .tc .vmem S1x8x128 .f32) (harg10 : arg10.IsWhole)
  (x0 : Vec F S4096x6 .f32) (x1 : Vec F S4096 .i32) (x2 : Vec F S4096x4 .f32) (xs0 xs1 xs2 : Vec F S1x8x128 .f32)

/-- At a half's first tile the negative log-likelihood accumulator is reset and then grows by the tile's sum. -/
theorem scratchA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 = k0_pay8 (k0_pay7 (logit0 x0) (logit1 x0) x1) k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's first tile the masked box error accumulator is reset and then grows by the tile's sum. -/
theorem scratchA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 = k0_pay9 (k0_pay5 x1) (k0_pay6 (boxCols x0) x2) k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's first tile the mask accumulator is reset and then grows by the tile's sum. -/
theorem scratchA2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 = k0_pay10 (k0_pay5 x1) k0_pay3 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a middle tile the negative log-likelihood accumulator grows by the tile's sum over what the tile before left. -/
theorem scratchB0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 xs0 xs1 xs2 = k0_pay8 (k0_pay7 (logit0 x0) (logit1 x0) x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a middle tile the masked box error accumulator grows by the tile's sum over what the tile before left. -/
theorem scratchB1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 xs0 xs1 xs2 = k0_pay9 (k0_pay5 x1) (k0_pay6 (boxCols x0) x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a middle tile the mask accumulator grows by the tile's sum over what the tile before left. -/
theorem scratchB2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 xs0 xs1 xs2 = k0_pay10 (k0_pay5 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the negative log-likelihood accumulator grows by the tile's sum over what the tile before left. -/
theorem scratchC0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 xs0 xs1 xs2 = k0_pay8 (k0_pay7 (logit0 x0) (logit1 x0) x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the masked box error accumulator grows by the tile's sum over what the tile before left. -/
theorem scratchC1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 xs0 xs1 xs2 = k0_pay9 (k0_pay5 x1) (k0_pay6 (boxCols x0) x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the mask accumulator grows by the tile's sum over what the tile before left. -/
theorem scratchC2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 xs0 xs1 xs2 = k0_pay10 (k0_pay5 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the negative log-likelihood output block is a copy of the accumulator just updated. -/
theorem outC3 (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 = k0_pay8 (k0_pay7 (logit0 x0) (logit1 x0) x1) xs0 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the masked box error output block is a copy of the accumulator just updated. -/
theorem outC4 (hc0 : ¬cond0_0 i) (hc1 : cond0_1 i) :
    out0_C_4 c i arg2 harg2 arg3 harg3 arg4 harg4 arg5 harg5 arg6 harg6 arg7 harg7 arg8 harg8 arg9 harg9 arg10 harg10 hc0 hc1 x0 x1 x2 xs0 xs1 xs2 = k0_pay9 (k0_pay5 x1) (k0_pay6 (boxCols x0) x2) xs1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

/-- At a half's last tile the mask output block is a copy of the accumulator just updated. -/
theorem outC5 (hc0 : ¬cond0_0 i) (hc1 : cond0_1 i) :
    out0_C_5 c i arg2 harg2 arg3 harg3 arg4 harg4 arg5 harg5 arg6 harg6 arg7 harg7 arg8 harg8 arg9 harg9 arg10 harg10 hc0 hc1 x0 x1 x2 xs0 xs1 xs2 = k0_pay10 (k0_pay5 x1) xs2 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz3, View.readCov_unit_zero (S := S1x8x128) _ hz3]
  simp only [View.readAt_eq_ld, harg2.read_unread, harg3.read_unread, harg4.read_unread, harg8.read_unread,
    harg9.read_unread, harg10.read_unread, View.ld_unit_zero (S := S1x8x128) hz3, View.ld_unit_zero (S := S4096) hz1,
    View.ld_unit_zero (S := S4096x4) hz2]

end pieces

end Cert.HeadLoss.Pieces

end
-- ==== Proof.Spec.lean ====
/-
  The head loss as ONE function of the three argument arrays, over the extended reals.

  A row `i` of the 4194304 carries two class logits `a = pred i 0`, `b = pred i 1`, a class word `c = cls i`, four
  predicted box coordinates `pred i 2 … pred i 5` and four target coordinates `box i 0 … box i 3`.
  • Its negative log-likelihood is `-(a - lse a b)` when `c = 0` and `-(b - lse a b)` otherwise, where
    `lse a b = max a b + log (exp (a - max a b) + exp (b - max a b))` is the log of `exp a + exp b` taken stably.
  • Its mask is `0` when `c = 0` and `1` otherwise.
  • Its box term is the mean of the four squared coordinate differences (the sum times the exact quarter) times the mask.
  The loss is `(∑ nll) / 4194304 + 10 · (∑ box) / (10⁻⁶ + ∑ mask)`, the three sums over all rows: `total`.
  The last line's four operations are written once (`lossOf`) on rank-0 arrays, with the literals as the words both
  programs print; nothing below evaluates them.
-/
import Idealize.ShloMosaic.PureOps.Ideal
import Idealize.ShloMosaic.PureOps.Ideal.Laws
import Idealize.ShloMosaic.Lib.ValueIdx

noncomputable section

open scoped BigOperators

namespace Cert.HeadLoss

open Idealize.ShloMosaic Idealize.ShloMosaic.ValueIdx

abbrev SPred : Shape := ⟨2, ![4194304, 6]⟩
abbrev SCls : Shape := ⟨1, ![4194304]⟩
abbrev SBox : Shape := ⟨2, ![4194304, 4]⟩
abbrev SScalar : Shape := ⟨0, ![]⟩

/-- The log of `exp a + exp b`, shifted by the larger of the two so that one exponent is zero. -/
def lse (a b : EReal) : EReal :=
  max a b + Ideal.log (Ideal.exp (a - max a b) + Ideal.exp (b - max a b))

/-- A row's negative log-likelihood: the class word picks which logit's log-probability is negated. -/
def nllRow (a b : EReal) (c : BitVec 32) : EReal :=
  if c = 0#32 then 0 - (a - lse a b) else 0 - (b - lse a b)

/-- A row's mask: one exactly when the class word is not the "no head" class `0`. -/
def maskRow (c : BitVec 32) : EReal := if c = 0#32 then 0 else 1

/-- Box coordinate `j` of a row sits in column `j + 2` of the prediction. -/
def boxCol (j : Fin 4) : Fin 6 := ⟨j.val + 2, by omega⟩

/-- A row's mean squared box error: the four squared differences summed, times the exact quarter. -/
def mseRow (p : Fin 6 → EReal) (b : Fin 4 → EReal) : EReal :=
  (∑ j : Fin 4, (p (boxCol j) - b j) * (p (boxCol j) - b j)) * Ideal.ofBits .f32 0x3E800000#32

section rows

variable (pred : FVec Ideal SPred .f32) (cls : IVec SCls 32) (box : FVec Ideal SBox .f32)

/-- Row `i`'s negative log-likelihood, read off the arrays. -/
def nllAt (i : Fin 4194304) : EReal := nllRow (pred (ix2 i (0 : Fin 6))) (pred (ix2 i (1 : Fin 6))) (cls (ix1 i))

/-- Row `i`'s mask. -/
def maskAt (i : Fin 4194304) : EReal := maskRow (cls (ix1 i))

/-- Row `i`'s masked mean squared box error. -/
def boxAt (i : Fin 4194304) : EReal :=
  mseRow (fun k => pred (ix2 i k)) (fun j => box (ix2 i j)) * maskAt cls i

end rows

/-- The closing arithmetic on the three sums, as rank-0 arrays: `sn / 2²² + 10 · sb / (10⁻⁶ + sm)`. -/
def lossOf (sn sb sm : FVec Ideal SScalar .f32) : FVec Ideal SScalar .f32 :=
  addf (Host.divf sn (constant (F := Ideal) SScalar .f32 0x4A800000#32))
    (Host.divf (mulf (constant (F := Ideal) SScalar .f32 0x41200000#32) sb)
      (addf (constant (F := Ideal) SScalar .f32 0x358637BD#32) sm))

/-- The head loss of the three arrays. -/
def total (pred : FVec Ideal SPred .f32) (cls : IVec SCls 32) (box : FVec Ideal SBox .f32) :
    FVec Ideal SScalar .f32 :=
  lossOf (fun _ => ∑ i : Fin 4194304, nllAt pred cls i) (fun _ => ∑ i : Fin 4194304, boxAt pred cls box i)
    (fun _ => ∑ i : Fin 4194304, maskAt cls i)

end Cert.HeadLoss

end
-- ==== Proof.Sums.lean ====
/-
  Regrouping the sum over the 4194304 rows the way the grid walks them.

  The rows are cut into 1024 tiles of 4096 consecutive rows (`rowOf T q = 4096·T + q`); tiles `0 … 511` make the first
  half and `512 … 1023` the second. A tile's rows are themselves summed in two stages, 32 groups of 128 (`two_stage`).
  `accSum f n` is the running sum a half has reached after tile `n`: the tiles from the half's first (`512·(n / 512)`)
  up to `n`. It starts at the half's first tile (`accSum_first`), grows by one tile per step (`accSum_step`), and the two
  halves' last values add up to the sum over all rows (`sum_rows`). Addition on the extended reals is commutative and
  associative, so none of this needs the summands finite.
-/
import proofs.«427612_j49185965473872_3_alg».proof.Proof.Spec

noncomputable section

open scoped BigOperators

namespace Cert.HeadLoss

/-- Row `q` of tile `T`. -/
def rowOf (T : Fin 1024) (q : Fin 4096) : Fin 4194304 := ⟨T.val * 4096 + q.val, by omega⟩

/-- The sum of `f` over the 4096 rows of tile `T`. -/
def tileSum (f : Fin 4194304 → EReal) (T : Fin 1024) : EReal := ∑ q : Fin 4096, f (rowOf T q)

/-- `tileSum` at a natural number (zero past the last tile, a value nothing below uses). -/
def tileSumN (f : Fin 4194304 → EReal) (k : ℕ) : EReal := if h : k < 1024 then tileSum f ⟨k, h⟩ else 0

/-- The running sum of tile `n`'s half: its tiles from the first up to `n`. -/
def accSum (f : Fin 4194304 → EReal) (n : ℕ) : EReal :=
  ∑ t ∈ Finset.range (n % 512 + 1), tileSumN f (n / 512 * 512 + t)

/-- Position `i·b + j` of an `a` by `b` grid laid out row after row lies below `n = a·b`. -/
private theorem grid_lt {a b n i j : ℕ} (hn : n = a * b) (hi : i < a) (hj : j < b) : i * b + j < n := by
  subst hn
  calc i * b + j < i * b + b := Nat.add_lt_add_left hj _
    _ = (i + 1) * b := (Nat.succ_mul i b).symm
    _ ≤ a * b := Nat.mul_le_mul_right b hi

/-- A sum over `n = a·b` consecutive indices, taken as `a` consecutive groups of `b`: the map
`(i, j) ↦ i·b + j` is a bijection from the grid onto the indices, and a finite sum in a commutative monoid
does not depend on the order of its terms. -/
private theorem sum_grid {M : Type*} [AddCommMonoid M] (a b n : ℕ) (hn : n = a * b) (g : Fin n → M) :
    (∑ i : Fin a, ∑ j : Fin b, g ⟨i.val * b + j.val, grid_lt hn i.isLt j.isLt⟩) = ∑ q : Fin n, g q := by
  subst hn
  rw [← Fintype.sum_prod_type' (fun (i : Fin a) (j : Fin b) => g ⟨i.val * b + j.val, grid_lt rfl i.isLt j.isLt⟩)]
  refine Fintype.sum_equiv finProdFinEquiv _ _ (fun x => ?_)
  congr 1
  ext
  show x.1.val * b + x.2.val = (finProdFinEquiv x).val
  rw [finProdFinEquiv_apply_val, Nat.add_comm, Nat.mul_comm]

/-- 4096 entries summed as 32 groups of 128 consecutive ones. -/
theorem two_stage (g : Fin 4096 → EReal) :
    (∑ r : Fin 32, ∑ l : Fin 128, g ⟨r.val * 128 + l.val, by omega⟩) = ∑ q : Fin 4096, g q :=
  sum_grid 32 128 4096 (by norm_num) g

/-- At a half's first tile the running sum is that tile's sum. -/
theorem accSum_first (f : Fin 4194304 → EReal) (n : ℕ) (h0 : n % 512 = 0) : accSum f n = tileSumN f n := by
  have h1 : n / 512 * 512 = n := by omega
  unfold accSum
  rw [h0, Nat.zero_add, Finset.sum_range_one, Nat.add_zero, h1]

/-- Past a half's first tile the running sum is the previous one plus this tile's sum. -/
theorem accSum_step (f : Fin 4194304 → EReal) (n : ℕ) (h0 : ¬ n % 512 = 0) :
    accSum f n = accSum f (n - 1) + tileSumN f n := by
  have h1 : (n - 1) % 512 + 1 = n % 512 := by omega
  have h2 : (n - 1) / 512 = n / 512 := by omega
  have h3 : n / 512 * 512 + n % 512 = n := by omega
  unfold accSum
  rw [Finset.sum_range_succ, h1, h2, h3]

/-- The sum over a tile at its natural-number index is the tile's sum. -/
private theorem tileSumN_val (f : Fin 4194304 → EReal) (T : Fin 1024) : tileSumN f T.val = tileSum f T := by
  unfold tileSumN
  rw [dif_pos T.isLt]

/-- The two halves' final running sums add up to the sum over all rows. -/
theorem sum_rows (f : Fin 4194304 → EReal) : (∑ i : Fin 4194304, f i) = accSum f 511 + accSum f 1023 := by
  -- all rows, tile after tile
  have hA : (∑ i : Fin 4194304, f i) = ∑ T : Fin 1024, tileSum f T :=
    (sum_grid 1024 4096 4194304 (by norm_num) f).symm
  -- the tiles, counted by natural numbers
  have hB : (∑ T : Fin 1024, tileSum f T) = ∑ k ∈ Finset.range 1024, tileSumN f k := by
    rw [← Fin.sum_univ_eq_sum_range (fun k => tileSumN f k) 1024]
    exact Finset.sum_congr rfl (fun T _ => (tileSumN_val f T).symm)
  -- the first 512 tiles, then the other 512
  have hC : (∑ k ∈ Finset.range 1024, tileSumN f k)
      = (∑ t ∈ Finset.range 512, tileSumN f t) + ∑ t ∈ Finset.range 512, tileSumN f (512 + t) :=
    Finset.sum_range_add (fun k => tileSumN f k) 512 512
  have h1 : accSum f 511 = ∑ t ∈ Finset.range 512, tileSumN f t := by
    have e1 : 511 % 512 + 1 = 512 := by norm_num
    have e2 : 511 / 512 * 512 = 0 := by norm_num
    unfold accSum
    rw [e1, e2]
    exact Finset.sum_congr rfl (fun t _ => by rw [Nat.zero_add])
  have h2 : accSum f 1023 = ∑ t ∈ Finset.range 512, tileSumN f (512 + t) := by
    have e1 : 1023 % 512 + 1 = 512 := by norm_num
    have e2 : 1023 / 512 * 512 = 512 := by norm_num
    unfold accSum
    rw [e1, e2]
  rw [hA, hB, hC, h1, h2]

end Cert.HeadLoss

end
-- ==== Proof.Payload.lean ====
/-
  The kernel body's arithmetic, read at an index over the extended reals.

  One grid point sees a tile of 4096 rows: the two logit columns `v3`, `v5`, the class words `v17`, the four predicted
  box columns `v27` and the four target columns `v28`. From them the body forms, row by row, the mask (`k0_pay5`), the
  mean squared box error (`k0_pay6`) and the negative log-likelihood, and sums each over the tile in two stages (32
  groups of 128 lanes, then the 32 group sums); the three accumulators then grow by the tile's three sums, the same
  number in each of their 1·8·128 entries (`k0_pay8`, `k0_pay9`, `k0_pay10`). At the first tile of a half the
  accumulators are first reset to zero (`k0_pay1`, `k0_pay2`, `k0_pay3`).
-/
import proofs.«427612_j49185965473872_3_alg».proof.Proof.Gen.KernelIdeal.Skeleton
import proofs.«427612_j49185965473872_3_alg».proof.Proof.Spec
import proofs.«427612_j49185965473872_3_alg».proof.Proof.Sums
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.HeadLoss.Payload

open Idealize.ShloMosaic Idealize.ShloMosaic.ValueIdx Cert.KernelIdeal Cert.KernelIdeal.Gen Cert.HeadLoss

/-! ## Words: the class test and the mask's conversion -/

/-- The comparison "not equal to the zero word" is the bit 0 on the zero word and 1 elsewhere. -/
private theorem cmpi_ne_zero (c : BitVec 32) : IntOp.cmpi .ne c 0#32 = if c = 0#32 then 0#1 else 1#1 := by
  unfold IntOp.cmpi
  by_cases h : c = 0#32
  · subst h; rfl
  · rw [if_neg h]
    show BitVec.ofBool (c != 0#32) = 1#1
    rw [show (c != 0#32) = true from bne_iff_ne.mpr h]
    rfl

/-- A bit widened to a word and read as a signed integer is the real number 0 or 1. -/
private theorem sitofp_bit (b : BitVec 1) :
    FloatOps.sitofp (F := Ideal) .f32 (b.setWidth 32) = if b = 1#1 then (1 : EReal) else 0 := by
  rcases BitVec.eq_zero_or_eq_one b with h | h <;> subst h
  · show (((BitVec.setWidth 32 0#1).toInt : ℝ) : EReal) = _
    rw [if_neg (by decide), show (BitVec.setWidth 32 0#1).toInt = 0 from by decide]
    simp
  · show (((BitVec.setWidth 32 1#1).toInt : ℝ) : EReal) = _
    rw [if_pos rfl, show (BitVec.setWidth 32 1#1).toInt = 1 from by decide]
    simp

/-! ## Layout: the column casts, the tile viewed as 32 rows of 128 lanes, and the sums along one axis -/

section Layout
variable {α : Type}

/-- A column [a, 1] cast to the vector [a] reads, at i, the operand at (i, 0). -/
private theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] cast to the column [a, 1] reads, at (i, u), the operand at i. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 4096 entries viewed as 32 rows of 128: entry (r, l) is entry 128 r + l of the vector. -/
private theorem shapeCast_flat_apply (x : S4096.Idx → α) (r : Fin 32) (l : Fin 128) :
    shapeCast S32x128 x shapeCasts_S4096_S32x128 (ix2 r l) = x (ix1 ⟨r.val * 128 + l.val, by omega⟩) :=
  shapeCast_apply x _ _ _ (by
    rw [Shape.rowMajor_val_two, Shape.rowMajor_val_one]
    rfl)

end Layout

/-- The sum over the 128 lanes of a 32 by 128 array, read at row r. -/
private theorem laneSum (x : FVec Ideal S32x128 .f32) (r : Fin 32) :
    multiReduction .add [1] S32 x 0x00000000#32 reduces_S32x128_S32 (.inl rfl) rfl (ix1 r)
      = ∑ l : Fin 128, x (ix2 r l) := by
  refine (Ideal.multiReduction_add_single x 0x00000000#32 reduces_S32x128_S32 (.inl rfl) rfl (ix1 r)).trans ?_
  refine Finset.sum_congr rfl fun l _ => congrArg x ?_
  funext c
  match c with
  | ⟨0, _⟩ => rfl
  | ⟨1, _⟩ => rfl

/-- The sum over the 32 rows of a 32 by 1 column, read at its one column u. -/
private theorem groupSum (x : FVec Ideal S32x1 .f32) (u : Fin 1) :
    multiReduction .add [0] S1 x 0x00000000#32 reduces_S32x1_S1 (.inl rfl) rfl (ix1 u)
      = ∑ r : Fin 32, x (ix2 r u) := by
  refine (Ideal.multiReduction_add_single x 0x00000000#32 reduces_S32x1_S1 (.inl rfl) rfl (ix1 u)).trans ?_
  refine Finset.sum_congr rfl fun r _ => congrArg x ?_
  funext c
  match c with
  | ⟨0, _⟩ => rfl
  | ⟨1, _⟩ => rfl

/-- The two-stage sum of a tile's 4096 entries (32 groups of 128 lanes, then the 32 group sums), as the body
    writes it, is the plain sum over the 4096 entries. -/
private theorem tileTotal_apply (x : FVec Ideal S4096 .f32) (u v : Fin 1) :
    shapeCast S1x1
        (multiReduction .add [0] S1
          (shapeCast S32x1
            (multiReduction .add [1] S32 (shapeCast S32x128 x shapeCasts_S4096_S32x128) 0x00000000#32
              reduces_S32x128_S32 (.inl rfl) rfl)
            shapeCasts_S32_S32x1)
          0x00000000#32 reduces_S32x1_S1 (.inl rfl) rfl)
        shapeCasts_S1_S1x1 (ix2 u v)
      = ∑ q : Fin 4096, x (ix1 q) := by
  rw [shapeCast_a_1a_apply, groupSum]
  rw [← two_stage fun q => x (ix1 q)]
  refine Finset.sum_congr rfl fun r _ => ?_
  rw [shapeCast_a_a1_apply, laneSum]
  refine Finset.sum_congr rfl fun l _ => ?_
  rw [shapeCast_flat_apply]

/-- The sum over the four columns of a 4096 by 4 array, read at row q. -/
private theorem rowSum4 (x : FVec Ideal S4096x4 .f32) (q : Fin 4096) :
    multiReduction .add [1] S4096 x 0x00000000#32 reduces_S4096x4_S4096 (.inl rfl) rfl (ix1 q)
      = ∑ j : Fin 4, x (ix2 q j) := by
  refine (Ideal.multiReduction_add_single x 0x00000000#32 reduces_S4096x4_S4096 (.inl rfl) rfl (ix1 q)).trans ?_
  refine Finset.sum_congr rfl fun j _ => congrArg x ?_
  funext c
  match c with
  | ⟨0, _⟩ => rfl
  | ⟨1, _⟩ => rfl

/-- The one entry of a 1 by 1 array, as the body extracts it. -/
private theorem extractAt_11 {α : Type} (x : S1x1.Idx → α) :
    extractAt ![0, 0] x inpos_S1x1_p0_0 = x (ix2 (0 : Fin 1) (0 : Fin 1)) := by
  unfold extractAt
  refine congrArg x ?_
  funext c
  match c with
  | ⟨0, _⟩ => rfl
  | ⟨1, _⟩ => rfl

/-! ## The transcendental operations at an index, and the class test at a row -/

section Pointwise
variable {s : Shape} {φ : FTy}

/-- An exponential at an index is the exponential of the element. -/
private theorem exp_apply (a : FVec Ideal s φ) (i : s.Idx) : exp a i = Ideal.exp (a i) := rfl
/-- A logarithm at an index is the logarithm of the element. -/
private theorem log_apply (a : FVec Ideal s φ) (i : s.Idx) : log a i = Ideal.log (a i) := rfl

end Pointwise

/-- The class test at row q: the bit 0 when the class word is zero, 1 otherwise. -/
private theorem pay4_apply (v17 : Vec Ideal S4096 .i32) (q : Fin 4096) :
    k0_pay4 (F := Ideal) v17 (ix1 q) = if v17 (ix1 q) = 0#32 then 0#1 else 1#1 := by
  unfold k0_pay4
  show IntOp.cmpi .ne (v17 (ix1 q)) 0#32 = _
  exact cmpi_ne_zero _

/-! ## The payloads -/

/-- The reset value of the first accumulator is zero everywhere. -/
theorem pay1_apply (y : S1x8x128.Idx) : k0_pay1 (F := Ideal) y = 0 := by
  unfold k0_pay1
  rw [shapeCast_self, broadcast_apply]
  exact Ideal.ofBits_zero_f32

/-- The reset value of the second accumulator is zero everywhere. -/
theorem pay2_apply (y : S1x8x128.Idx) : k0_pay2 (F := Ideal) y = 0 := by
  unfold k0_pay2
  rw [shapeCast_self, broadcast_apply]
  exact Ideal.ofBits_zero_f32

/-- The reset value of the third accumulator is zero everywhere. -/
theorem pay3_apply (y : S1x8x128.Idx) : k0_pay3 (F := Ideal) y = 0 := by
  unfold k0_pay3
  rw [shapeCast_self, broadcast_apply]
  exact Ideal.ofBits_zero_f32

/-- Row `q`'s mask: one exactly when its class word is not zero. -/
theorem pay5_apply (v17 : Vec Ideal S4096 .i32) (q : Fin 4096) :
    k0_pay5 (F := Ideal) v17 (ix1 q) = maskRow (v17 (ix1 q)) := by
  unfold k0_pay5 k0_pay4
  rw [sitofp_apply, extui_apply]
  show FloatOps.sitofp (F := Ideal) .f32 (BitVec.setWidth 32 (IntOp.cmpi .ne (v17 (ix1 q)) 0#32)) = _
  rw [sitofp_bit, cmpi_ne_zero]
  unfold maskRow
  by_cases hc : v17 (ix1 q) = 0#32
  · rw [if_pos hc, if_pos hc, if_neg (by decide)]
  · rw [if_neg hc, if_neg hc, if_pos rfl]

/-- Row `q`'s mean squared box error: the four squared differences summed, times the exact quarter. -/
theorem pay6_apply (v27 v28 : Vec Ideal S4096x4 .f32) (q : Fin 4096) :
    k0_pay6 (F := Ideal) v27 v28 (ix1 q)
      = (∑ j : Fin 4, (v27 (ix2 q j) - v28 (ix2 q j)) * (v27 (ix2 q j) - v28 (ix2 q j)))
          * Ideal.ofBits .f32 0x3E800000#32 := by
  unfold k0_pay6
  rw [mulf_apply, broadcast_apply, rowSum4]
  rfl

/-- The tile's negative log-likelihoods, summed over its 4096 rows. -/
theorem pay7_apply (v3 v5 : Vec Ideal S4096x1 .f32) (v17 : Vec Ideal S4096 .i32) (y : S1x1.Idx) :
    k0_pay7 (F := Ideal) v3 v5 v17 y
      = ∑ q : Fin 4096, nllRow (v3 (ix2 q (0 : Fin 1))) (v5 (ix2 q (0 : Fin 1))) (v17 (ix1 q)) := by
  obtain ⟨u, v, rfl⟩ : ∃ (u v : Fin 1), y = ix2 u v := ⟨y 0, y 1, eq_ix2 y⟩
  unfold k0_pay7
  rw [tileTotal_apply]
  refine Finset.sum_congr rfl fun q _ => ?_
  rw [select_apply, pay4_apply]
  simp only [subf_apply, addf_apply, maximumf_apply, broadcast_apply, exp_apply, log_apply, shapeCast_a1_a_apply]
  show Scalar.select _ (Ideal.ofBits .f32 0x00000000#32 - _) (Ideal.ofBits .f32 0x00000000#32 - _) = _
  rw [Ideal.ofBits_zero_f32]
  unfold nllRow lse
  by_cases hc : v17 (ix1 q) = 0#32
  · rw [if_pos hc, if_pos hc, select_zero]
  · rw [if_neg hc, if_neg hc, select_one]

/-- The first accumulator grows by the tile's sum, in every entry. -/
theorem pay8_apply (v38 : FVec Ideal S1x1 .f32) (v53 : Vec Ideal S1x8x128 .f32) (y : S1x8x128.Idx) :
    k0_pay8 (F := Ideal) v38 v53 y = v53 y + v38 (ix2 (0 : Fin 1) (0 : Fin 1)) := by
  unfold k0_pay8
  rw [shapeCast_self, addf_apply, broadcast_apply, extractAt_11]

/-- The second accumulator grows by the tile's sum of masked box errors, in every entry. -/
theorem pay9_apply (v26 v33 : FVec Ideal S4096 .f32) (v59 : Vec Ideal S1x8x128 .f32) (y : S1x8x128.Idx) :
    k0_pay9 (F := Ideal) v26 v33 v59 y = v59 y + ∑ q : Fin 4096, v33 (ix1 q) * v26 (ix1 q) := by
  unfold k0_pay9
  rw [shapeCast_self, addf_apply, broadcast_apply, extractAt_11, tileTotal_apply]
  rfl

/-- The third accumulator grows by the tile's sum of masks, in every entry. -/
theorem pay10_apply (v26 : FVec Ideal S4096 .f32) (v65 : Vec Ideal S1x8x128 .f32) (y : S1x8x128.Idx) :
    k0_pay10 (F := Ideal) v26 v65 y = v65 y + ∑ q : Fin 4096, v26 (ix1 q) := by
  unfold k0_pay10
  rw [shapeCast_self, addf_apply, broadcast_apply, extractAt_11, tileTotal_apply]

end Cert.HeadLoss.Payload

end
-- ==== Proof.KernelValue.lean ====
/-
  The kernel's result is the head loss of its arguments.

  The grid is walked as 1024 tiles in order; tile `t` sees rows `4096·t … 4096·t + 4095` of the three arrays. After
  tile `t` each of the three accumulators holds, in every one of its 1·8·128 entries, the running sum of its half
  (`accSum`): of the rows' negative log-likelihoods, masked box errors and masks. A half's last tile copies the
  accumulators into block `h` of the three [2, 8, 128] outputs; the host then adds entry (h, 0, 0) of the two blocks of
  each output — the two halves' totals, together the sum over all rows — and closes with `lossOf`.
-/
import proofs.«427612_j49185965473872_3_alg».proof.Proof.Pieces
import proofs.«427612_j49185965473872_3_alg».proof.Proof.Payload
import proofs.«427612_j49185965473872_3_alg».proof.Proof.Sums
import proofs.«427612_j49185965473872_3_alg».proof.Proof.Spec
import proofs.«427612_j49185965473872_3_alg».proof.Proof.Gen.KernelIdeal.Points
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

open Idealize.ShloMosaic Idealize.ShloMosaic.TcCoe Idealize.ShloMosaic.ValueIdx Idealize.SL.Sem
open Idealize.ShloMosaic.Pipeline (Dat)

namespace Cert.HeadLoss.KernelValue

open Cert.KernelIdeal Cert.KernelIdeal.Gen Cert.HeadLoss Cert.HeadLoss.Pieces Cert.HeadLoss.Payload

variable (m : (ℓ : Loc nD τ sig) → Buf (Elt Ideal) ℓ) (ρ : Dev nD → PrngReg)

/-- The three argument arrays on core `c`. -/
abbrev predA (c : Dev nD) : FVec Ideal SPred .f32 := m ((c.tc : Thread nD τ).loc main_arg0)
abbrev clsA (c : Dev nD) : IVec SCls 32 := m ((c.tc : Thread nD τ).loc main_arg1)
abbrev boxA (c : Dev nD) : FVec Ideal SBox .f32 := m ((c.tc : Thread nD τ).loc main_arg2)

/-- The three row functions whose sums the kernel accumulates. -/
abbrev fN (c : Dev nD) : Fin 4194304 → EReal := nllAt (predA m c) (clsA m c)
abbrev fB (c : Dev nD) : Fin 4194304 → EReal := boxAt (predA m c) (clsA m c) (boxA m c)
abbrev fM (c : Dev nD) : Fin 4194304 → EReal := maskAt (clsA m c)

/-- The three input blocks of tile `t`, at their literal types. -/
abbrev xb0 (c : Dev nD) (t : Fin cfg0.N) : Vec Ideal S4096x6 .f32 := iblk m c 0 t
abbrev xb1 (c : Dev nD) (t : Fin cfg0.N) : Vec Ideal S4096 .i32 := iblk m c 1 t
abbrev xb2 (c : Dev nD) (t : Fin cfg0.N) : Vec Ideal S4096x4 .f32 := iblk m c 2 t

/-- A grid point as a tile number. -/
def tileOf (t : Fin cfg0.N) : Fin 1024 := ⟨t.val, lt_of_lt_of_eq t.isLt N_0⟩

/-- The input windows' block index at tile `t` is `t` along the rows and `0` along the columns. -/
theorem in_idx : ∀ t : Fin cfg0.N,
    (win0_0.index t (0 : Fin 2) = t.val ∧ win0_0.index t (1 : Fin 2) = 0)
    ∧ win0_1.index t (0 : Fin 1) = t.val
    ∧ (win0_2.index t (0 : Fin 2) = t.val ∧ win0_2.index t (1 : Fin 2) = 0) := by decide +kernel

/-- Tile `t`'s prediction block reads the prediction at rows `4096·t + q`. -/
theorem xb0_apply (c : Dev nD) (t : Fin cfg0.N) (q : Fin 4096) (k : Fin 6) :
    xb0 m c t (ix2 q k) = predA m c (ix2 (rowOf (tileOf t) q) k) := by
  show iblk m c 0 t (ix2 q k) = _
  unfold iblk
  rw [View.read_apply]
  show V m c main_arg0 _ = m ((c.tc : Thread nD τ).loc main_arg0) _
  unfold V
  congr 1
  funext a
  apply Fin.ext
  match a with
  | ⟨0, _⟩ => show win0_0.index t 0 * 4096 + 1 * q.val = t.val * 4096 + q.val; rw [(in_idx t).1.1]; omega
  | ⟨1, _⟩ => show win0_0.index t 1 * 6 + 1 * k.val = k.val; rw [(in_idx t).1.2]; omega

/-- Tile `t`'s class block reads the class words at rows `4096·t + q`. -/
theorem xb1_apply (c : Dev nD) (t : Fin cfg0.N) (q : Fin 4096) :
    xb1 m c t (ix1 q) = clsA m c (ix1 (rowOf (tileOf t) q)) := by
  show iblk m c 1 t (ix1 q) = _
  unfold iblk
  rw [View.read_apply]
  show V m c main_arg1 _ = m ((c.tc : Thread nD τ).loc main_arg1) _
  unfold V
  congr 1
  funext a
  apply Fin.ext
  match a with
  | ⟨0, _⟩ => show win0_1.index t 0 * 4096 + 1 * q.val = t.val * 4096 + q.val; rw [(in_idx t).2.1]; omega

/-- Tile `t`'s target block reads the target boxes at rows `4096·t + q`. -/
theorem xb2_apply (c : Dev nD) (t : Fin cfg0.N) (q : Fin 4096) (j : Fin 4) :
    xb2 m c t (ix2 q j) = boxA m c (ix2 (rowOf (tileOf t) q) j) := by
  show iblk m c 2 t (ix2 q j) = _
  unfold iblk
  rw [View.read_apply]
  show V m c main_arg2 _ = m ((c.tc : Thread nD τ).loc main_arg2) _
  unfold V
  congr 1
  funext a
  apply Fin.ext
  match a with
  | ⟨0, _⟩ => show win0_2.index t 0 * 4096 + 1 * q.val = t.val * 4096 + q.val; rw [(in_idx t).2.2.1]; omega
  | ⟨1, _⟩ => show win0_2.index t 1 * 4 + 1 * j.val = j.val; rw [(in_idx t).2.2.2]; omega

/-! ## One tile's three sums -/

/-- The body's first logit load, read at row `q`: column 0 of the block. -/
theorem logit0_apply (x0 : Vec Ideal S4096x6 .f32) (q : Fin 4096) :
    logit0 x0 (ix2 q (0 : Fin 1)) = x0 (ix2 q (0 : Fin 6)) := by
  show x0 _ = x0 _
  congr 1
  funext a
  apply Fin.ext
  match a with
  | ⟨0, _⟩ => show 0 + 1 * q.val = q.val; omega
  | ⟨1, _⟩ => rfl

/-- The body's second logit load, read at row `q`: column 1 of the block. -/
theorem logit1_apply (x0 : Vec Ideal S4096x6 .f32) (q : Fin 4096) :
    logit1 x0 (ix2 q (0 : Fin 1)) = x0 (ix2 q (1 : Fin 6)) := by
  show x0 _ = x0 _
  congr 1
  funext a
  apply Fin.ext
  match a with
  | ⟨0, _⟩ => show 0 + 1 * q.val = q.val; omega
  | ⟨1, _⟩ => rfl

/-- The body's box load, read at row `q` and box coordinate `j`: column `j + 2` of the block. -/
theorem boxCols_apply (x0 : Vec Ideal S4096x6 .f32) (q : Fin 4096) (j : Fin 4) :
    boxCols x0 (ix2 q j) = x0 (ix2 q (boxCol j)) := by
  show x0 _ = x0 _
  congr 1
  funext a
  apply Fin.ext
  match a with
  | ⟨0, _⟩ => show 0 + 1 * q.val = q.val; omega
  | ⟨1, _⟩ => show 2 + 1 * j.val = j.val + 2; omega

theorem tileSumN_eq (f : Fin 4194304 → EReal) (t : Fin cfg0.N) : tileSumN f t.val = tileSum f (tileOf t) := by
  unfold tileSumN
  rw [dif_pos (lt_of_lt_of_eq t.isLt N_0)]
  rfl

/-- Tile `t`'s negative log-likelihoods sum to the tile sum of the row function. -/
theorem tile_nll (c : Dev nD) (t : Fin cfg0.N) (y : S1x1.Idx) :
    k0_pay7 (F := Ideal) (logit0 (xb0 m c t)) (logit1 (xb0 m c t)) (xb1 m c t) y = tileSumN (fN m c) t.val := by
  refine (pay7_apply (logit0 (xb0 m c t)) (logit1 (xb0 m c t)) (xb1 m c t) y).trans ?_
  rw [tileSumN_eq]
  unfold tileSum
  refine Finset.sum_congr rfl fun q _ => ?_
  rw [logit0_apply, logit1_apply, xb0_apply, xb0_apply, xb1_apply]
  rfl

/-- Tile `t`'s masks sum to the tile sum of the mask function. -/
theorem tile_mask (c : Dev nD) (t : Fin cfg0.N) :
    (∑ q : Fin 4096, k0_pay5 (F := Ideal) (xb1 m c t) (ix1 q)) = tileSumN (fM m c) t.val := by
  rw [tileSumN_eq]
  unfold tileSum
  refine Finset.sum_congr rfl fun q _ => ?_
  refine (pay5_apply (xb1 m c t) q).trans ?_
  rw [xb1_apply]
  rfl

/-- Tile `t`'s masked box errors sum to the tile sum of the box function. -/
theorem tile_box (c : Dev nD) (t : Fin cfg0.N) :
    (∑ q : Fin 4096, k0_pay6 (F := Ideal) (boxCols (xb0 m c t)) (xb2 m c t) (ix1 q)
        * k0_pay5 (F := Ideal) (xb1 m c t) (ix1 q)) = tileSumN (fB m c) t.val := by
  rw [tileSumN_eq]
  unfold tileSum
  refine Finset.sum_congr rfl fun q _ => ?_
  rw [pay6_apply (boxCols (xb0 m c t)) (xb2 m c t) q, pay5_apply (xb1 m c t) q, xb1_apply]
  show _ = mseRow _ _ * maskRow _
  unfold mseRow
  congr 2
  refine Finset.sum_congr rfl fun j _ => ?_
  rw [boxCols_apply, xb0_apply, xb2_apply]

/-! ## The accumulators after a tile -/

/-- An accumulator holding the same number in all of its entries. -/
abbrev blk (x : EReal) : Vec Ideal S1x8x128 .f32 := fun _ => x

theorem upd_nll (c : Dev nD) (t : Fin cfg0.N) (a : EReal) :
    k0_pay8 (F := Ideal) (k0_pay7 (logit0 (xb0 m c t)) (logit1 (xb0 m c t)) (xb1 m c t)) (blk a)
      = blk (a + tileSumN (fN m c) t.val) := by
  funext y
  refine (pay8_apply _ (blk a) y).trans ?_
  rw [tile_nll]

theorem upd_box (c : Dev nD) (t : Fin cfg0.N) (a : EReal) :
    k0_pay9 (F := Ideal) (k0_pay5 (xb1 m c t)) (k0_pay6 (boxCols (xb0 m c t)) (xb2 m c t)) (blk a)
      = blk (a + tileSumN (fB m c) t.val) := by
  funext y
  refine (pay9_apply (k0_pay5 (xb1 m c t)) (k0_pay6 (boxCols (xb0 m c t)) (xb2 m c t)) (blk a) y).trans ?_
  rw [tile_box]

theorem upd_mask (c : Dev nD) (t : Fin cfg0.N) (a : EReal) :
    k0_pay10 (F := Ideal) (k0_pay5 (xb1 m c t)) (blk a) = blk (a + tileSumN (fM m c) t.val) := by
  funext y
  refine (pay10_apply (k0_pay5 (xb1 m c t)) (blk a) y).trans ?_
  rw [tile_mask]

theorem pay1_blk : k0_pay1 (F := Ideal) = blk 0 := funext pay1_apply
theorem pay2_blk : k0_pay2 (F := Ideal) = blk 0 := funext pay2_apply
theorem pay3_blk : k0_pay3 (F := Ideal) = blk 0 := funext pay3_apply

/-! ## The accumulators point by point -/

/-- At a half's first tile the three accumulators end at the tile's three sums. -/
theorem step_first (c : Dev nD) (t : Fin cfg0.N) (h0 : t.val % 512 = 0) (h1 : ¬t.val % 512 = 511) :
    (outsAt0 m c t.val t.isLt).2.2.2.1 = blk (tileSumN (fN m c) t.val)
    ∧ (outsAt0 m c t.val t.isLt).2.2.2.2.1 = blk (tileSumN (fB m c) t.val)
    ∧ (outsAt0 m c t.val t.isLt).2.2.2.2.2 = blk (tileSumN (fM m c) t.val) := by
  rw [outsAt0_A m c t h0 h1]
  dsimp only
  refine ⟨?_, ?_, ?_⟩
  · refine (scratchA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _).trans ?_
    rw [pay1_blk, upd_nll, zero_add]
  · refine (scratchA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _).trans ?_
    rw [pay2_blk, upd_box, zero_add]
  · refine (scratchA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _).trans ?_
    rw [pay3_blk, upd_mask, zero_add]

/-- At a middle tile each accumulator grows by the tile's sum over what the tile before left. -/
theorem step_middle (c : Dev nD) (t : Fin cfg0.N) (h0 : ¬t.val % 512 = 0) (h1 : ¬t.val % 512 = 511) (a0 a1 a2 : EReal)
    (hp : (outsAt0 m c (t.val - 1) (Nat.lt_of_le_of_lt (Nat.sub_le _ _) t.isLt)).2.2.2.1 = blk a0 ∧ (outsAt0 m c (t.val - 1) (Nat.lt_of_le_of_lt (Nat.sub_le _ _) t.isLt)).2.2.2.2.1 = blk a1 ∧ (outsAt0 m c (t.val - 1) (Nat.lt_of_le_of_lt (Nat.sub_le _ _) t.isLt)).2.2.2.2.2 = blk a2) :
    (outsAt0 m c t.val t.isLt).2.2.2.1 = blk (a0 + tileSumN (fN m c) t.val)
    ∧ (outsAt0 m c t.val t.isLt).2.2.2.2.1 = blk (a1 + tileSumN (fB m c) t.val)
    ∧ (outsAt0 m c t.val t.isLt).2.2.2.2.2 = blk (a2 + tileSumN (fM m c) t.val) := by
  rw [outsAt0_B m c t h0 h1]
  dsimp only
  refine ⟨?_, ?_, ?_⟩
  · refine (scratchB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.1, upd_nll]
  · refine (scratchB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.1, upd_box]
  · refine (scratchB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.2, upd_mask]

/-- At a half's last tile the accumulators grow the same way, and the three output blocks receive their copies. -/
theorem step_last (c : Dev nD) (t : Fin cfg0.N) (h0 : ¬t.val % 512 = 0) (h1 : t.val % 512 = 511) (a0 a1 a2 : EReal)
    (hp : (outsAt0 m c (t.val - 1) (Nat.lt_of_le_of_lt (Nat.sub_le _ _) t.isLt)).2.2.2.1 = blk a0 ∧ (outsAt0 m c (t.val - 1) (Nat.lt_of_le_of_lt (Nat.sub_le _ _) t.isLt)).2.2.2.2.1 = blk a1 ∧ (outsAt0 m c (t.val - 1) (Nat.lt_of_le_of_lt (Nat.sub_le _ _) t.isLt)).2.2.2.2.2 = blk a2) :
    ((outsAt0 m c t.val t.isLt).2.2.2.1 = blk (a0 + tileSumN (fN m c) t.val)
      ∧ (outsAt0 m c t.val t.isLt).2.2.2.2.1 = blk (a1 + tileSumN (fB m c) t.val)
      ∧ (outsAt0 m c t.val t.isLt).2.2.2.2.2 = blk (a2 + tileSumN (fM m c) t.val))
    ∧ ((outsAt0 m c t.val t.isLt).1 = blk (a0 + tileSumN (fN m c) t.val)
      ∧ (outsAt0 m c t.val t.isLt).2.1 = blk (a1 + tileSumN (fB m c) t.val)
      ∧ (outsAt0 m c t.val t.isLt).2.2.1 = blk (a2 + tileSumN (fM m c) t.val)) := by
  rw [outsAt0_C m c t h0 h1]
  dsimp only
  refine ⟨⟨?_, ?_, ?_⟩, ?_, ?_, ?_⟩
  · refine (scratchC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.1, upd_nll]
  · refine (scratchC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.1, upd_box]
  · refine (scratchC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.2, upd_mask]
  · refine (outC3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.1, upd_nll]
  · refine (outC4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.1, upd_box]
  · refine (outC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (xb0 m c t) (xb1 m c t) (xb2 m c t) _ _ _ _ _).trans ?_
    rw [hp.2.2, upd_mask]

/-- After tile `n` every accumulator holds its half's running sum, in all of its entries. -/
theorem acc_inv (c : Dev nD) : ∀ (n : ℕ) (h : n < cfg0.N),
    (outsAt0 m c n h).2.2.2.1 = blk (accSum (fN m c) n)
    ∧ (outsAt0 m c n h).2.2.2.2.1 = blk (accSum (fB m c) n)
    ∧ (outsAt0 m c n h).2.2.2.2.2 = blk (accSum (fM m c) n) := by
  intro n
  induction n with
  | zero =>
    intro h
    have e := step_first m c ⟨0, h⟩ (Nat.zero_mod _) (by show ¬(0 : ℕ) % 512 = 511; decide)
    rw [accSum_first _ 0 (Nat.zero_mod _), accSum_first _ 0 (Nat.zero_mod _), accSum_first _ 0 (Nat.zero_mod _)]
    exact e
  | succ n ih =>
    intro h
    have hN : n + 1 < 1024 := lt_of_lt_of_eq h N_0
    by_cases h0 : (n + 1) % 512 = 0
    · have e := step_first m c ⟨n + 1, h⟩ h0 (by dsimp only; omega)
      rw [accSum_first _ _ h0, accSum_first _ _ h0, accSum_first _ _ h0]
      exact e
    · have ihn := ih (Nat.lt_of_succ_lt h)
      rw [accSum_step _ _ h0, accSum_step _ _ h0, accSum_step _ _ h0]
      by_cases h1 : (n + 1) % 512 = 511
      · exact (step_last m c ⟨n + 1, h⟩ h0 h1 _ _ _ ihn).1
      · exact step_middle m c ⟨n + 1, h⟩ h0 h1 _ _ _ ihn

/-- At a half's last tile the three output blocks hold the half's totals. -/
theorem out_last (c : Dev nD) (t : Fin cfg0.N) (h1 : t.val % 512 = 511) :
    (outsAt0 m c t.val t.isLt).1 = blk (accSum (fN m c) t.val)
    ∧ (outsAt0 m c t.val t.isLt).2.1 = blk (accSum (fB m c) t.val)
    ∧ (outsAt0 m c t.val t.isLt).2.2.1 = blk (accSum (fM m c) t.val) := by
  have h0 : ¬t.val % 512 = 0 := by omega
  rw [accSum_step _ _ h0, accSum_step _ _ h0, accSum_step _ _ h0]
  exact (step_last m c t h0 h1 _ _ _ (acc_inv m c (t.val - 1) (Nat.lt_of_le_of_lt (Nat.sub_le _ _) t.isLt))).2

/-! ## The three output arrays -/

/-- An output array at the end: every entry of block `h` holds half `h`'s total. -/
abbrev outArr (f : Fin 4194304 → EReal) : Vec Ideal S2x8x128 .f32 := fun i => accSum f (512 * (i 0).val + 511)

/-- The output windows' block index at tile `t` is the half `t / 512`, and no block is clipped. -/
theorem out_idx3 : ∀ t : Fin cfg0.N,
    (win0_3.index t (0 : Fin 3) = t.val / 512 ∧ win0_3.index t (1 : Fin 3) = 0 ∧ win0_3.index t (2 : Fin 3) = 0)
    ∧ (win0_3.xsize (grid0.coords t) (0 : Fin 3) = 1 ∧ win0_3.xsize (grid0.coords t) (1 : Fin 3) = 8
        ∧ win0_3.xsize (grid0.coords t) (2 : Fin 3) = 128) := by decide +kernel

/-- What a half's last tile writes back to the first output is its block of `outArr`. -/
theorem flushed3 (c : Dev nD) (t : Fin cfg0.N) (hf : (cfg0.win 3).flush t = true) :
    (dats m 0 c).flushed 3 t = ((cfg0.win 3).blk t).view.read (Elt Ideal) (outArr (fN m c)) := by
  have h1 : t.val % 512 = 511 := (flush0_3 t).mp hf
  show (cfg0.win 3).cut (grid0.coords t) ((dats m 0 c).after 3 t) = _
  rw [after0_3, (out_last m c t h1).1]
  funext y
  rw [View.read_apply]
  show accSum (fN m c) t.val = accSum (fN m c) (512 * (win0_3.index t 0 * 1 + 1 * (y 0).val) + 511)
  have hy : (y 0).val < win0_3.xsize (grid0.coords t) 0 := (y 0).isLt
  rw [(out_idx3 t).2.1] at hy
  rw [(out_idx3 t).1.1]
  congr 1
  omega

/-- So the first output array ends as `outArr` of the negative log-likelihoods. -/
theorem final3 (c : Dev nD) : (dats m 0 c).arrAt 3 cfg0.N = outArr (fN m c) :=
  (dats m 0 c).arrAt_eq_of_cover 3 (outArr (fN m c)) (flushed3 m c) fun i => by
    have h0 : (i 0 : Nat) < 2 := (i 0).isLt
    have h1 : (i 1 : Nat) < 8 := (i 1).isLt
    have h2 : (i 2 : Nat) < 128 := (i 2).isLt
    have hlt : 512 * (i 0).val + 511 < cfg0.N := lt_of_lt_of_eq (by omega) N_0.symm
    refine ⟨⟨512 * (i 0).val + 511, hlt⟩, (flush0_3 _).mpr (by dsimp only; omega), ?_⟩
    show i ∈ ((View.whole main_v0_0).slice (win0_3.rect ⟨512 * (i 0).val + 511, hlt⟩)).set
    rw [View.set_slice_whole, Rect.mem_set_unit]
    intro a
    match a with
    | ⟨0, _⟩ =>
      show win0_3.index _ 0 * win0_3.size 0 ≤ (i 0 : Nat) ∧ (i 0 : Nat) < win0_3.index _ 0 * win0_3.size 0 + win0_3.xsize (grid0.coords _) 0
      rw [(out_idx3 _).1.1, (out_idx3 _).2.1]
      show (512 * (i 0).val + 511) / 512 * 1 ≤ (i 0 : Nat) ∧ (i 0 : Nat) < (512 * (i 0).val + 511) / 512 * 1 + 1
      omega
    | ⟨1, _⟩ =>
      show win0_3.index _ 1 * win0_3.size 1 ≤ (i 1 : Nat) ∧ (i 1 : Nat) < win0_3.index _ 1 * win0_3.size 1 + win0_3.xsize (grid0.coords _) 1
      rw [(out_idx3 _).1.2.1, (out_idx3 _).2.2.1]
      omega
    | ⟨2, _⟩ =>
      show win0_3.index _ 2 * win0_3.size 2 ≤ (i 2 : Nat) ∧ (i 2 : Nat) < win0_3.index _ 2 * win0_3.size 2 + win0_3.xsize (grid0.coords _) 2
      rw [(out_idx3 _).1.2.2, (out_idx3 _).2.2.2]
      omega
/-- The output windows' block index at tile `t` is the half `t / 512`, and no block is clipped. -/
theorem out_idx4 : ∀ t : Fin cfg0.N,
    (win0_4.index t (0 : Fin 3) = t.val / 512 ∧ win0_4.index t (1 : Fin 3) = 0 ∧ win0_4.index t (2 : Fin 3) = 0)
    ∧ (win0_4.xsize (grid0.coords t) (0 : Fin 3) = 1 ∧ win0_4.xsize (grid0.coords t) (1 : Fin 3) = 8
        ∧ win0_4.xsize (grid0.coords t) (2 : Fin 3) = 128) := by decide +kernel

/-- What a half's last tile writes back to the second output is its block of `outArr`. -/
theorem flushed4 (c : Dev nD) (t : Fin cfg0.N) (hf : (cfg0.win 4).flush t = true) :
    (dats m 0 c).flushed 4 t = ((cfg0.win 4).blk t).view.read (Elt Ideal) (outArr (fB m c)) := by
  have h1 : t.val % 512 = 511 := (flush0_4 t).mp hf
  show (cfg0.win 4).cut (grid0.coords t) ((dats m 0 c).after 4 t) = _
  rw [after0_4, (out_last m c t h1).2.1]
  funext y
  rw [View.read_apply]
  show accSum (fB m c) t.val = accSum (fB m c) (512 * (win0_4.index t 0 * 1 + 1 * (y 0).val) + 511)
  have hy : (y 0).val < win0_4.xsize (grid0.coords t) 0 := (y 0).isLt
  rw [(out_idx4 t).2.1] at hy
  rw [(out_idx4 t).1.1]
  congr 1
  omega

/-- So the second output array ends as `outArr` of the masked box errors. -/
theorem final4 (c : Dev nD) : (dats m 0 c).arrAt 4 cfg0.N = outArr (fB m c) :=
  (dats m 0 c).arrAt_eq_of_cover 4 (outArr (fB m c)) (flushed4 m c) fun i => by
    have h0 : (i 0 : Nat) < 2 := (i 0).isLt
    have h1 : (i 1 : Nat) < 8 := (i 1).isLt
    have h2 : (i 2 : Nat) < 128 := (i 2).isLt
    have hlt : 512 * (i 0).val + 511 < cfg0.N := lt_of_lt_of_eq (by omega) N_0.symm
    refine ⟨⟨512 * (i 0).val + 511, hlt⟩, (flush0_4 _).mpr (by dsimp only; omega), ?_⟩
    show i ∈ ((View.whole main_v0_1).slice (win0_4.rect ⟨512 * (i 0).val + 511, hlt⟩)).set
    rw [View.set_slice_whole, Rect.mem_set_unit]
    intro a
    match a with
    | ⟨0, _⟩ =>
      show win0_4.index _ 0 * win0_4.size 0 ≤ (i 0 : Nat) ∧ (i 0 : Nat) < win0_4.index _ 0 * win0_4.size 0 + win0_4.xsize (grid0.coords _) 0
      rw [(out_idx4 _).1.1, (out_idx4 _).2.1]
      show (512 * (i 0).val + 511) / 512 * 1 ≤ (i 0 : Nat) ∧ (i 0 : Nat) < (512 * (i 0).val + 511) / 512 * 1 + 1
      omega
    | ⟨1, _⟩ =>
      show win0_4.index _ 1 * win0_4.size 1 ≤ (i 1 : Nat) ∧ (i 1 : Nat) < win0_4.index _ 1 * win0_4.size 1 + win0_4.xsize (grid0.coords _) 1
      rw [(out_idx4 _).1.2.1, (out_idx4 _).2.2.1]
      omega
    | ⟨2, _⟩ =>
      show win0_4.index _ 2 * win0_4.size 2 ≤ (i 2 : Nat) ∧ (i 2 : Nat) < win0_4.index _ 2 * win0_4.size 2 + win0_4.xsize (grid0.coords _) 2
      rw [(out_idx4 _).1.2.2, (out_idx4 _).2.2.2]
      omega
/-- The output windows' block index at tile `t` is the half `t / 512`, and no block is clipped. -/
theorem out_idx5 : ∀ t : Fin cfg0.N,
    (win0_5.index t (0 : Fin 3) = t.val / 512 ∧ win0_5.index t (1 : Fin 3) = 0 ∧ win0_5.index t (2 : Fin 3) = 0)
    ∧ (win0_5.xsize (grid0.coords t) (0 : Fin 3) = 1 ∧ win0_5.xsize (grid0.coords t) (1 : Fin 3) = 8
        ∧ win0_5.xsize (grid0.coords t) (2 : Fin 3) = 128) := by decide +kernel

/-- What a half's last tile writes back to the third output is its block of `outArr`. -/
theorem flushed5 (c : Dev nD) (t : Fin cfg0.N) (hf : (cfg0.win 5).flush t = true) :
    (dats m 0 c).flushed 5 t = ((cfg0.win 5).blk t).view.read (Elt Ideal) (outArr (fM m c)) := by
  have h1 : t.val % 512 = 511 := (flush0_5 t).mp hf
  show (cfg0.win 5).cut (grid0.coords t) ((dats m 0 c).after 5 t) = _
  rw [after0_5, (out_last m c t h1).2.2]
  funext y
  rw [View.read_apply]
  show accSum (fM m c) t.val = accSum (fM m c) (512 * (win0_5.index t 0 * 1 + 1 * (y 0).val) + 511)
  have hy : (y 0).val < win0_5.xsize (grid0.coords t) 0 := (y 0).isLt
  rw [(out_idx5 t).2.1] at hy
  rw [(out_idx5 t).1.1]
  congr 1
  omega

/-- So the third output array ends as `outArr` of the masks. -/
theorem final5 (c : Dev nD) : (dats m 0 c).arrAt 5 cfg0.N = outArr (fM m c) :=
  (dats m 0 c).arrAt_eq_of_cover 5 (outArr (fM m c)) (flushed5 m c) fun i => by
    have h0 : (i 0 : Nat) < 2 := (i 0).isLt
    have h1 : (i 1 : Nat) < 8 := (i 1).isLt
    have h2 : (i 2 : Nat) < 128 := (i 2).isLt
    have hlt : 512 * (i 0).val + 511 < cfg0.N := lt_of_lt_of_eq (by omega) N_0.symm
    refine ⟨⟨512 * (i 0).val + 511, hlt⟩, (flush0_5 _).mpr (by dsimp only; omega), ?_⟩
    show i ∈ ((View.whole main_v0_2).slice (win0_5.rect ⟨512 * (i 0).val + 511, hlt⟩)).set
    rw [View.set_slice_whole, Rect.mem_set_unit]
    intro a
    match a with
    | ⟨0, _⟩ =>
      show win0_5.index _ 0 * win0_5.size 0 ≤ (i 0 : Nat) ∧ (i 0 : Nat) < win0_5.index _ 0 * win0_5.size 0 + win0_5.xsize (grid0.coords _) 0
      rw [(out_idx5 _).1.1, (out_idx5 _).2.1]
      show (512 * (i 0).val + 511) / 512 * 1 ≤ (i 0 : Nat) ∧ (i 0 : Nat) < (512 * (i 0).val + 511) / 512 * 1 + 1
      omega
    | ⟨1, _⟩ =>
      show win0_5.index _ 1 * win0_5.size 1 ≤ (i 1 : Nat) ∧ (i 1 : Nat) < win0_5.index _ 1 * win0_5.size 1 + win0_5.xsize (grid0.coords _) 1
      rw [(out_idx5 _).1.2.1, (out_idx5 _).2.2.1]
      omega
    | ⟨2, _⟩ =>
      show win0_5.index _ 2 * win0_5.size 2 ≤ (i 2 : Nat) ∧ (i 2 : Nat) < win0_5.index _ 2 * win0_5.size 2 + win0_5.xsize (grid0.coords _) 2
      rw [(out_idx5 _).1.2.2, (out_idx5 _).2.2.2]
      omega

/-! ## The host's closing lines -/

instance : Subsingleton S1x1x1.Idx := ⟨fun a b => funext fun d => by
  match d with
  | ⟨0, _⟩ => exact Subsingleton.elim (α := Fin 1) _ _
  | ⟨1, _⟩ => exact Subsingleton.elim (α := Fin 1) _ _
  | ⟨2, _⟩ => exact Subsingleton.elim (α := Fin 1) _ _⟩

/-- Entries (0, 0, 0) and (1, 0, 0) of an output array, added: the two halves' totals joined. -/
def halves (A : Vec Ideal S2x8x128 .f32) : FVec Ideal S_ .f32 :=
  addf (shapeCast S_ (extractStridedSlice S1x1x1 ![0, 0, 0] A slices_S2x8x128_S1x1x1_0_0_0) shapeCasts_S1x1x1_S_)
    (shapeCast S_ (extractStridedSlice S1x1x1 ![1, 0, 0] A slices_S2x8x128_S1x1x1_1_0_0) shapeCasts_S1x1x1_S_)

theorem pick0 (A : Vec Ideal S2x8x128 .f32) (j : S_.Idx) :
    shapeCast S_ (extractStridedSlice S1x1x1 ![0, 0, 0] A slices_S2x8x128_S1x1x1_0_0_0) shapeCasts_S1x1x1_S_ j
      = A (ix3 (0 : Fin 2) (0 : Fin 8) (0 : Fin 128)) := by
  unfold shapeCast
  refine (congrArg _ (Subsingleton.elim _ (ix3 (0 : Fin 1) (0 : Fin 1) (0 : Fin 1)))).trans ?_
  unfold extractStridedSlice
  congr 1
  funext a
  apply Fin.ext
  match a with
  | ⟨0, _⟩ => rfl
  | ⟨1, _⟩ => rfl
  | ⟨2, _⟩ => rfl

theorem pick1 (A : Vec Ideal S2x8x128 .f32) (j : S_.Idx) :
    shapeCast S_ (extractStridedSlice S1x1x1 ![1, 0, 0] A slices_S2x8x128_S1x1x1_1_0_0) shapeCasts_S1x1x1_S_ j
      = A (ix3 (1 : Fin 2) (0 : Fin 8) (0 : Fin 128)) := by
  unfold shapeCast
  refine (congrArg _ (Subsingleton.elim _ (ix3 (0 : Fin 1) (0 : Fin 1) (0 : Fin 1)))).trans ?_
  unfold extractStridedSlice
  congr 1
  funext a
  apply Fin.ext
  match a with
  | ⟨0, _⟩ => rfl
  | ⟨1, _⟩ => rfl
  | ⟨2, _⟩ => rfl

/-- The two halves' totals of an output array add up to the sum over all rows. -/
theorem halves_outArr (f : Fin 4194304 → EReal) : halves (outArr f) = fun _ => ∑ i : Fin 4194304, f i := by
  funext j
  unfold halves
  show shapeCast S_ _ _ j + shapeCast S_ _ _ j = _
  rw [pick0, pick1, sum_rows]
  rfl

set_option maxHeartbeats 4000000 in
/-- What the host's lines after the region leave in the result buffer: the head loss of the arguments. -/
theorem tail_eq (c : Dev nD) :
    Pipeline.afterTail₀ cfgs (dats m) 0 (V0 m) [hostOps1] c main_v20 = total (predA m c) (clsA m c) (boxA m c) := by
  unfold Pipeline.afterTail₀
  show StableHlo.after hostOps1 _ (Proc.devRef .tc main_v20) = _
  after_results_simp
  have e3 : Pipeline.withArrays (cfgs 0).spec c (V0 m c) (fun w => (dats m 0 c).arrAt w (cfgs 0).N)
      (Proc.devRef .tc main_v0_0) = outArr (fN m c) :=
    (Pipeline.withArrays_arr (cfgs 0).spec launch0.win.arr_inj c _ _ 3).trans (final3 m c)
  have e4 : Pipeline.withArrays (cfgs 0).spec c (V0 m c) (fun w => (dats m 0 c).arrAt w (cfgs 0).N)
      (Proc.devRef .tc main_v0_1) = outArr (fB m c) :=
    (Pipeline.withArrays_arr (cfgs 0).spec launch0.win.arr_inj c _ _ 4).trans (final4 m c)
  have e5 : Pipeline.withArrays (cfgs 0).spec c (V0 m c) (fun w => (dats m 0 c).arrAt w (cfgs 0).N)
      (Proc.devRef .tc main_v0_2) = outArr (fM m c) :=
    (Pipeline.withArrays_arr (cfgs 0).spec launch0.win.arr_inj c _ _ 5).trans (final5 m c)
  rw [e3, e4, e5]
  show lossOf (halves (outArr (fN m c))) (halves (outArr (fB m c))) (halves (outArr (fM m c))) = _
  rw [halves_outArr, halves_outArr, halves_outArr]
  rfl

/-- The kernel's run, read: the result buffer ends at the head loss of the argument arrays, which end unchanged. -/
theorem kernel_run : θ_run defs (onTc (τ := τ) (main (F := Ideal))) ⟨m, fun _ => 0, ρ⟩ (fun r => ∀ c : Dev nD,
      r.2.mem ((c.tc : Thread nD τ).loc main_v20) = total (predA m c) (clsA m c) (boxA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v20 (Pipeline.mem_restRefs_of main_v20 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.HeadLoss.KernelValue

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.PreDecode.lean ====
/-
  What the precondition says, entry by entry.

  The printed predicate is a conjunction of three "for all entries" tests: every entry of the prediction has absolute
  value below `+∞`, every entry of the target box likewise, and every class word `c` satisfies `0 ≤ c` and `c < 2` as a
  signed 32-bit integer. Over the extended reals `|x| < +∞` says `x` is a real number; a signed word in `[0, 2)` is the
  word `0` or the word `1`.
-/
import proofs.«427612_j49185965473872_3_alg».proof.Pre_finite_inputs
import proofs.«427612_j49185965473872_3_alg».proof.Proof.LibFinite
import Idealize.ShloMosaic.PureOps.Ideal
import Idealize.ShloMosaic.Lib.ValueIdx
import Idealize.ShloMosaic.Lib.ReduceAll
import Idealize.ShloMosaic.Lib.StableHlo.Predicate

noncomputable section

namespace Cert.HeadLoss

open Idealize.ShloMosaic Idealize.ShloMosaic.ValueIdx

/-- A signed 32-bit word that is at least `0` and below `2` is `0` or `1`. -/
theorem word_zero_or_one (c : BitVec 32) (h0 : IntOp.cmpi .sge c 0#32 = 1#1) (h2 : IntOp.cmpi .slt c 2#32 = 1#1) :
    c = 0#32 ∨ c = 1#32 := by
  -- The two tests are the signed inequalities `0 ≤ c` and `c < 2` on the integer the word denotes.
  rw [IntOp.cmpi_sge] at h0
  rw [IntOp.cmpi_slt] at h2
  have z : (0#32 : BitVec 32).toInt = 0 := by decide
  have o : (1#32 : BitVec 32).toInt = 1 := by decide
  have t : (2#32 : BitVec 32).toInt = 2 := by decide
  rw [z] at h0
  rw [t] at h2
  -- An integer in `[0, 2)` is `0` or `1`, and a word is determined by the integer it denotes.
  have hc : c.toInt = 0 ∨ c.toInt = 1 := by omega
  rcases hc with hc | hc
  · exact Or.inl (BitVec.eq_of_toInt_eq (by rw [hc, z]))
  · exact Or.inr (BitVec.eq_of_toInt_eq (by rw [hc, o]))

/-- The pattern `0x7F800000` denotes `+∞`. -/
private theorem inf_pattern : Ideal.ofBits .f32 0x7F800000#32 = (⊤ : EReal) := by
  simp [Ideal.ofBits, Ideal.ieee]

/-- An extended real whose absolute value `max x (-x)` tests below `+∞` is a real number:
    `x = +∞` makes the maximum `+∞`, and so does `x = -∞` through `-x`. -/
private theorem isFin_of_abs_lt (x : EReal)
    (h : Ideal.cmp .olt (max x (-x)) (Ideal.ofBits .f32 0x7F800000#32) = 1#1) : Cert.Fin.IsFin x := by
  rw [inf_pattern] at h
  have hlt : max x (-x) < ⊤ := by
    by_contra hn
    simp [Ideal.cmp, hn] at h
  refine Cert.Fin.isFin_of_ne ?_ ?_
  · rintro rfl
    simp at hlt
  · rintro rfl
    simp at hlt

/-- A result of rank zero has one index. -/
private instance : Subsingleton Cert.Pre_finite_inputs.S_.Idx := ⟨fun a b => funext fun d => d.elim0⟩

/-- The precondition, decoded: both float arrays hold real numbers only, and every class word is `0` or `1`. -/
theorem pre_decode [Cert.Pre_finite_inputs.Facts]
    (p : FVec Ideal Cert.Pre_finite_inputs.S4194304x6 .f32) (c : IVec Cert.Pre_finite_inputs.S4194304 32)
    (b : FVec Ideal Cert.Pre_finite_inputs.S4194304x4 .f32)
    (h : Cert.Pre_finite_inputs.fn (F := Ideal) p c b = fun _ => 1#1) :
    Cert.Fin.AllFin p ∧ Cert.Fin.AllFin b ∧ ∀ i, c i = 0#32 ∨ c i = 1#32 := by
  have h1 := congrFun h ValueIdx.ix0
  dsimp only [Cert.Pre_finite_inputs.fn] at h1
  simp only [andi, IntOp.andi_eq_one] at h1
  obtain ⟨⟨hp, hb⟩, hc⟩ := h1
  refine ⟨fun i => ?_, fun i => ?_, fun i => ?_⟩
  · -- Every entry of the first test array is 1; at entry `i` that is the test `|p i| < +∞`.
    have e := Host.reduce_andi_all _ _ _ _ _ hp i
    exact isFin_of_abs_lt (p i) e
  · have e := Host.reduce_andi_all _ _ _ _ _ hb i
    exact isFin_of_abs_lt (b i) e
  · -- At entry `i` the third test array holds the conjunction of the two word tests on `c i`.
    have e := Host.reduce_andi_all _ _ _ _ _ hc i
    obtain ⟨e0, e2⟩ := IntOp.andi_eq_one.1 e
    exact word_zero_or_one (c i) e0 e2

end Cert.HeadLoss

end
-- ==== Proof.RefRow.lean ====
/-
  One row of the head loss, as the reference computes it, over the extended reals.

  A row has two class logits `a`, `b` and a class word `w`. The reference shifts both logits by the larger one,
  `m = max a b`, takes `L = log (exp (a - m) + exp (b - m))`, and the log-probability of a logit `l` is `(l - m) - L`
  (`logp`). For real `a`, `b` every quantity here is a real number — the two exponentials are positive, so the
  logarithm's argument is — and `(l - m) - L = l - (m + L)` holds in the reals: the negated log-probability of the
  first logit is `nllRow a b 0`, of the second `nllRow a b 1`.
  The class word reaches the pick through a normalisation (a negative word is shifted up by the class count, two) and
  a range test (`0 ≤ · ≤ 1`); on the words `0` and `1` the normalisation changes nothing and the test passes.
  The mask is the bit "the word is not zero" read as a number. The mean squared box error divides a sum by four, and
  on every extended real a division by four is the product with the exact quarter.
-/
import proofs.«427612_j49185965473872_3_alg».proof.Proof.Spec
import proofs.«427612_j49185965473872_3_alg».proof.Proof.LibFinite
import Idealize.ShloMosaic.PureOps.Ideal.Laws
import Idealize.ShloMosaic.Lib.ValueIdx

noncomputable section

open scoped BigOperators

namespace Cert.HeadLoss.RefRow

open Idealize.ShloMosaic Idealize.ShloMosaic.ValueIdx Cert.HeadLoss Cert.Fin

/-! ### The float literals -/

/-- The word of `-∞` denotes the bottom of the extended reals. -/
theorem ofBits_neginf : Ideal.ofBits .f32 0xFF800000#32 = ⊥ := by
  simp [Ideal.ofBits, Ideal.ieee]

/-- The word of `4.0` denotes the real number four. -/
theorem ofBits_four : Ideal.ofBits .f32 0x40800000#32 = ((4 : ℝ) : EReal) := by
  simp [Ideal.ofBits, Ideal.ieee, -EReal.coe_mul]; norm_num

/-- The word of `0.25` denotes the real number one quarter. -/
theorem ofBits_quarter : Ideal.ofBits .f32 0x3E800000#32 = ((1 / 4 : ℝ) : EReal) := by
  simp [Ideal.ofBits, Ideal.ieee, -EReal.coe_mul]; norm_num

/-- Dividing by four is multiplying by the quarter, at the infinities too. -/
theorem div_four (x : EReal) :
    Ideal.div x (Ideal.ofBits .f32 0x40800000#32) = x * Ideal.ofBits .f32 0x3E800000#32 := by
  rw [ofBits_four, ofBits_quarter]
  exact Ideal.div_coe (by norm_num) x

/-! ### The log-softmax of two logits -/

/-- The reference's log-probability of the logit `l` in a row whose two logits are `a` and `b`. -/
def logp (a b l : EReal) : EReal :=
  (l - max a b) - Ideal.log (Ideal.exp (a - max a b) + Ideal.exp (b - max a b))

/-- The larger of two real numbers, read as extended reals. -/
theorem coe_max (x y : ℝ) : max (x : EReal) (y : EReal) = ((max x y : ℝ) : EReal) :=
  (EReal.coe_strictMono.monotone.map_max).symm

/-- For real logits the log-probability is the real number `(l - m) - log (exp (a - m) + exp (b - m))`. -/
theorem logp_real (ra rb rl : ℝ) :
    logp (ra : EReal) (rb : EReal) (rl : EReal)
      = (((rl - max ra rb) - Real.log (Real.exp (ra - max ra rb) + Real.exp (rb - max ra rb)) : ℝ) : EReal) := by
  unfold logp
  rw [coe_max, ← EReal.coe_sub, ← EReal.coe_sub, ← EReal.coe_sub, Ideal.exp_coe, Ideal.exp_coe, ← EReal.coe_add,
    Ideal.log_coe, if_neg (not_le.mpr (by positivity)), ← EReal.coe_sub]

/-- For real logits the stable log-sum-exp is the real number `m + log (exp (a - m) + exp (b - m))`. -/
theorem lse_real (ra rb : ℝ) :
    lse (ra : EReal) (rb : EReal)
      = ((max ra rb + Real.log (Real.exp (ra - max ra rb) + Real.exp (rb - max ra rb)) : ℝ) : EReal) := by
  unfold lse
  rw [coe_max, ← EReal.coe_sub, ← EReal.coe_sub, Ideal.exp_coe, Ideal.exp_coe, ← EReal.coe_add,
    Ideal.log_coe, if_neg (not_le.mpr (by positivity)), ← EReal.coe_add]

/-- Class `0`: the negated log-probability of the first logit is the row's negative log-likelihood. -/
theorem neg_logp_left {a b : EReal} (ha : IsFin a) (hb : IsFin b) : -(logp a b a) = nllRow a b 0#32 := by
  obtain ⟨ra, rfl⟩ := ha; obtain ⟨rb, rfl⟩ := hb
  unfold nllRow
  rw [if_pos rfl, logp_real, lse_real, ← EReal.coe_sub, ← EReal.coe_zero, ← EReal.coe_sub, ← EReal.coe_neg]
  congr 1; ring

/-- Class `1`: the negated log-probability of the second logit is the row's negative log-likelihood. -/
theorem neg_logp_right {a b : EReal} (ha : IsFin a) (hb : IsFin b) : -(logp a b b) = nllRow a b 1#32 := by
  obtain ⟨ra, rfl⟩ := ha; obtain ⟨rb, rfl⟩ := hb
  unfold nllRow
  rw [if_neg (by decide), logp_real, lse_real, ← EReal.coe_sub, ← EReal.coe_zero, ← EReal.coe_sub, ← EReal.coe_neg]
  congr 1; ring

/-! ### The class word -/

/-- The class word as the pick reads it: a negative word is shifted up by the class count. -/
def normIdx (w : BitVec 32) : BitVec 32 := Scalar.select (IntOp.cmpi .slt w 0#32) (IntOp.addi w 2#32) w

/-- The pick's range test on a normalised word: at least `0` and at most `1`, as signed integers. -/
def inRange (v : BitVec 32) : BitVec 1 := IntOp.andi (IntOp.cmpi .sge v 0#32) (IntOp.cmpi .sle v 1#32)

/-- The word `0` is not negative: it is read as it is. -/
theorem normIdx_zero : normIdx 0#32 = 0#32 := by decide
/-- The word `1` is not negative: it is read as it is. -/
theorem normIdx_one : normIdx 1#32 = 1#32 := by decide
/-- The word `0` is in range. -/
theorem inRange_zero : inRange 0#32 = 1#1 := by decide
/-- The word `1` is in range. -/
theorem inRange_one : inRange 1#32 = 1#1 := by decide

/-- The bit "the class word is not zero", read as a number, is the row's mask. -/
theorem mask_word (w : BitVec 32) (hw : w = 0#32 ∨ w = 1#32) :
    FloatOps.uitofp (F := Ideal) .f32 (IntOp.cmpi .ne w 0#32) = maskRow w := by
  rcases hw with rfl | rfl
  · show (((IntOp.cmpi .ne 0#32 0#32).toNat : ℝ) : EReal) = maskRow 0#32
    unfold maskRow
    rw [if_pos rfl, show (IntOp.cmpi .ne 0#32 0#32) = 0#1 by decide]
    simp
  · show (((IntOp.cmpi .ne 1#32 0#32).toNat : ℝ) : EReal) = maskRow 1#32
    unfold maskRow
    rw [if_neg (by decide), show (IntOp.cmpi .ne 1#32 0#32) = 1#1 by decide]
    simp

/-! ### The mean squared box error -/

/-- The four squared differences summed from zero and divided by four are the row's mean squared error. -/
theorem mse_row (p : Fin 6 → EReal) (b : Fin 4 → EReal) :
    Ideal.div (Ideal.ofBits .f32 0x00000000#32 + ∑ j : Fin 4, (p (boxCol j) - b j) * (p (boxCol j) - b j))
        (Ideal.ofBits .f32 0x40800000#32)
      = mseRow p b := by
  unfold mseRow
  rw [Ideal.ofBits_zero_f32, zero_add, div_four]

end Cert.HeadLoss.RefRow

end
-- ==== Proof.RefStages.lean ====
/-
  The three reference operations whose result element is not one element of each operand, read at a row.

  • The maximum over the two-wide class axis, taken from `-∞`: row `i`'s result is the larger of the row's two
    entries. (A reduction over one axis by a commutative, associative operation is the fold over that axis's
    coordinates; two coordinates give `max x₀ (max x₁ (-∞))`, and `-∞` is the bottom element.)
  • The conjunction over the trailing axis of size one, taken from `true`: the row's one bit.
  • The batched pick along the class axis: result `(i, 0)` is the operand's row `i` at the column the index array
    names at `(i, 0, 0)`, read as a signed integer and clamped into `[0, 1]`. The row axis is a batching axis (its
    coordinate is copied from the result index); the class axis is collapsed and is the one the index addresses.
  Last, a sum over the rank-one index set of the rows is the sum over the row numbers.
-/
import proofs.«427612_j49185965473872_3_alg».proof.Proof.Gen.ReferenceIdeal
import Idealize.ShloMosaic.PureOps.Ideal.Laws
import Idealize.ShloMosaic.PureOps.Reduce
import Idealize.ShloMosaic.Lib.ValueIdx

noncomputable section

open scoped BigOperators

namespace Cert.HeadLoss.RefStages

open Idealize.ShloMosaic Idealize.ShloMosaic.ValueIdx
open Cert.ReferenceIdeal Cert.ReferenceIdeal.Gen

/-! ### The row maximum -/

/-- The word of `-∞` denotes the bottom of the extended reals. -/
theorem ofBits_neginf : Ideal.ofBits .f32 0xFF800000#32 = ⊥ := by
  simp [Ideal.ofBits, Ideal.ieee]

/-- A fold of `max` over two coordinates. -/
theorem fold_max_two (f : Fin 2 → EReal) (b : EReal) :
    (Finset.univ : Finset (Fin 2)).fold max b f = max (f 0) (max (f 1) b) := by
  rw [show (Finset.univ : Finset (Fin 2)) = insert 0 {1} from rfl]
  rw [Finset.fold_insert (by decide), Finset.fold_singleton]

/-- Row `i` of the maximum over the class axis, from `-∞`, is the larger of the row's two entries. -/
theorem rowmax_apply (x : FVec Ideal S4194304x2 .f32) (i : Fin 4194304) :
    Host.reduce (FloatOps.maximumf (F := Ideal)) x (constant (F := Ideal) S_ .f32 0xFF800000#32)
        reducesTo_S4194304x2_S4194304_d1 h_S_ (ix1 i)
      = max (x (ix2 i (0 : Fin 2))) (x (ix2 i (1 : Fin 2))) := by
  have hr : S4194304x2.Reduces [1] S4194304 := by decide
  rw [Host.reduce_eq_fold_single (FloatOps.maximumf (F := Ideal)) x _ reducesTo_S4194304x2_S4194304_d1 hr h_S_]
  have e0 : hr.lift (ix1 i) (0 : Fin 2) = ix2 i (0 : Fin 2) :=
    funext fun a => Fin.ext (by match a with | ⟨0, _⟩ => rfl | ⟨1, _⟩ => rfl)
  have e1 : hr.lift (ix1 i) (1 : Fin 2) = ix2 i (1 : Fin 2) :=
    funext fun a => Fin.ext (by match a with | ⟨0, _⟩ => rfl | ⟨1, _⟩ => rfl)
  refine (fold_max_two (fun k => x (hr.lift (ix1 i) k)) (Ideal.ofBits .f32 0xFF800000#32)).trans ?_
  rw [e0, e1, ofBits_neginf, max_bot_right]

/-! ### The conjunction over an axis of size one -/

/-- A fold of `and` over one coordinate. -/
theorem fold_andi_one (f : Fin 1 → BitVec 1) (b : BitVec 1) :
    (Finset.univ : Finset (Fin 1)).fold IntOp.andi b f = IntOp.andi (f 0) b := by
  rw [show (Finset.univ : Finset (Fin 1)) = {0} from rfl, Finset.fold_singleton]

/-- `true` is neutral for `and` on one bit. -/
theorem andi_one (v : BitVec 1) : IntOp.andi v 1#1 = v := by
  revert v; decide

/-- Entry `(i, 0)` of the conjunction over the trailing axis, from `true`, is the one bit it ranges over. -/
theorem rowand_apply (x : IVec S4194304x1x1 1) (i : Fin 4194304) :
    Host.reduce IntOp.andi x (constantI S_ 1 1#1) reducesTo_S4194304x1x1_S4194304x1_d2 h_S_ (ix2 i (0 : Fin 1))
      = x (ix3 i (0 : Fin 1) (0 : Fin 1)) := by
  have hr : S4194304x1x1.Reduces [2] S4194304x1 := by decide
  rw [Host.reduce_eq_fold_single IntOp.andi x _ reducesTo_S4194304x1x1_S4194304x1_d2 hr h_S_]
  have e0 : hr.lift (ix2 i (0 : Fin 1)) (0 : Fin 1) = ix3 i (0 : Fin 1) (0 : Fin 1) :=
    funext fun a => Fin.ext (by match a with | ⟨0, _⟩ => rfl | ⟨1, _⟩ => rfl | ⟨2, _⟩ => rfl)
  refine (fold_andi_one (fun k => x (hr.lift (ix2 i (0 : Fin 1)) k)) 1#1).trans ?_
  rw [e0, andi_one]

/-! ### The batched pick along the class axis -/

/-- Entry `(i, 0)` of the pick is the operand's row `i` at the column the index array holds at `(i, 0, 0)`, read
    signed and clamped into `[0, 1]`. -/
theorem gather_apply {α : Type} (x : S4194304x2.Idx → α) (idx : IVec S4194304x1x1 32) (i : Fin 4194304) :
    Host.gather gather_S4194304x2_S4194304x1x1_S4194304x1_n_1_0_0_1_2_11 x idx (ix2 i (0 : Fin 1))
      = x (ix2 i (⟨min (idx (ix3 i (0 : Fin 1) (0 : Fin 1))).toInt.toNat 1, by omega⟩ : Fin 2)) := by
  unfold Host.gather
  congr 1
  funext a
  refine Fin.ext ?_
  match a with
  | ⟨0, _⟩ =>
    -- the row axis: a batching axis, its coordinate the result's row
    show gather_S4194304x2_S4194304x1x1_S4194304x1_n_1_0_0_1_2_11.start (ix2 i (0 : Fin 1)) idx 0
      + gather_S4194304x2_S4194304x1x1_S4194304x1_n_1_0_0_1_2_11.batchCoord (ix2 i (0 : Fin 1)) 0
      + gather_S4194304x2_S4194304x1x1_S4194304x1_n_1_0_0_1_2_11.offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the class axis: collapsed, addressed by the clamped start index
    show gather_S4194304x2_S4194304x1x1_S4194304x1_n_1_0_0_1_2_11.start (ix2 i (0 : Fin 1)) idx 1
      + gather_S4194304x2_S4194304x1x1_S4194304x1_n_1_0_0_1_2_11.batchCoord (ix2 i (0 : Fin 1)) 1
      + gather_S4194304x2_S4194304x1x1_S4194304x1_n_1_0_0_1_2_11.offCoord (ix2 i (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4194304x2_S4194304x1x1_S4194304x1_n_1_0_0_1_2_11.startIndexMap from
      List.mem_singleton.mpr rfl)]
    have hsi : gather_S4194304x2_S4194304x1x1_S4194304x1_n_1_0_0_1_2_11.siIdx (ix2 i (0 : Fin 1))
        ⟨List.idxOf (1 : Fin 2) gather_S4194304x2_S4194304x1x1_S4194304x1_n_1_0_0_1_2_11.startIndexMap,
          List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

/-! ### A sum over the rows -/

/-- A rank-one index is its one coordinate. -/
def idxEquiv1 {n : Nat} : (⟨1, ![n]⟩ : Shape).Idx ≃ Fin n where
  toFun j := j 0
  invFun i := ix1 i
  left_inv j := (eq_ix1 j).symm
  right_inv _ := rfl

/-- A sum over a rank-one index set is the sum over the coordinate. -/
theorem sum_idx1 {M : Type*} [AddCommMonoid M] {n : Nat} (f : (⟨1, ![n]⟩ : Shape).Idx → M) :
    ∑ j, f j = ∑ i : Fin n, f (ix1 i) :=
  (Equiv.sum_comp (idxEquiv1 (n := n)).symm f).symm

end Cert.HeadLoss.RefStages

end
-- ==== Proof.RefValue.lean ====
/-
  The reference's result is the head loss of its arguments.

  The reference takes the log-softmax of the two class logits of every row (each logit minus the row's larger one,
  minus the log of the sum of the two exponentials of those differences), picks the entry the class word names — the
  word is `0` or `1` under the precondition, so no index is out of range and no fill value is ever selected —, negates
  it and averages over the rows; it takes the mean of the four squared box differences of every row (the sum divided
  by four, which on the extended reals is the sum times the exact quarter), masks it by "class word is not zero", and
  sums; and it closes with the same four operations as `lossOf`. With every float entry a real number, each row's
  picked log-probability is the kernel-form `nllRow` of that row: `(l - m) - L = l - (m + L)` for real `l`, `m`, `L`.

  The reading goes stage by stage at a row `i`: the row's shift (the larger logit), a shifted logit, the sum of the two
  exponentials, the log-softmax entry; the normalised class word, its range test, the picked entry, the negated pick;
  the mask; the masked mean squared box error. Each of the three sums over the rows then starts from zero, and the
  closing arithmetic is `lossOf`'s, literal for literal.
-/
import proofs.«427612_j49185965473872_3_alg».proof.Defs
import proofs.«427612_j49185965473872_3_alg».proof.Proof.RefRun
import proofs.«427612_j49185965473872_3_alg».proof.Proof.RefRead
import proofs.«427612_j49185965473872_3_alg».proof.Proof.Gen.Pre_finite_inputs
import proofs.«427612_j49185965473872_3_alg».proof.Proof.Spec
import proofs.«427612_j49185965473872_3_alg».proof.Proof.PreDecode
import proofs.«427612_j49185965473872_3_alg».proof.Proof.LibFinite
import proofs.«427612_j49185965473872_3_alg».proof.Proof.RefRow
import proofs.«427612_j49185965473872_3_alg».proof.Proof.RefStages
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.HeadLoss.RefValue

open Idealize.ShloMosaic Idealize.ShloMosaic.TcCoe Idealize.ShloMosaic.ValueIdx Idealize.SL.Sem
open Cert.ReferenceIdeal Cert.ReferenceIdeal.Gen Cert.ReferenceIdeal.Read
open Cert.HeadLoss Cert.HeadLoss.RefRow Cert.HeadLoss.RefStages Cert.Fin

/-! ### The log-softmax, row by row -/

/-- Column `k` of the two logit columns is column `k` of the prediction. -/
def col (k : Fin 2) : Fin 6 := ⟨k.val, by omega⟩

theorem idx_v0 (i : Fin 4194304) (k : Fin 2) : idx_main_v0 (ix2 i k) = ix2 i (col k) :=
  funext fun a => Fin.ext (by match a with | ⟨0, _⟩ => rfl | ⟨1, _⟩ => rfl)

/-- The logit slice at `(i, k)` is the prediction at `(i, k)`. -/
theorem v0_apply (p : FVec Ideal S4194304x6 .f32) (i : Fin 4194304) (k : Fin 2) :
    val_main_v0 (F := Ideal) p (ix2 i k) = p (ix2 i (col k)) := by
  rw [val_main_v0_apply, idx_v0]

/-- Row `i`'s shift is the larger of its two logits. -/
theorem rowmax (p : FVec Ideal S4194304x6 .f32) (i : Fin 4194304) :
    val_main_call0_v2 (F := Ideal) p (ix1 i) = max (p (ix2 i (0 : Fin 6))) (p (ix2 i (1 : Fin 6))) := by
  rw [val_main_call0_v2_apply, val_main_call0_v1_apply, val_main_call0_cst_0_apply]
  unfold val_main_call0_v0 val_main_call0_cst
  rw [rowmax_apply, v0_apply, v0_apply]
  show max (Ideal.ofBits .f32 0xFF800000#32) _ = _
  rw [RefRow.ofBits_neginf, max_bot_left]
  rfl

/-- A shifted logit. -/
theorem shifted (p : FVec Ideal S4194304x6 .f32) (i : Fin 4194304) (k : Fin 2) :
    val_main_call0_v5 (F := Ideal) p (ix2 i k)
      = p (ix2 i (col k)) - max (p (ix2 i (0 : Fin 6))) (p (ix2 i (1 : Fin 6))) := by
  have e : idx_main_call0_v3 (idx_main_call0_v4 (ix2 i k)) = ix1 i :=
    funext fun a => Fin.ext (by match a with | ⟨0, _⟩ => rfl)
  rw [val_main_call0_v5_apply, v0_apply, val_main_call0_v4_apply, val_main_call0_v3_apply, e, rowmax]
  rfl

/-- The row's sum of the two exponentials of the shifted logits. -/
theorem sumexp (p : FVec Ideal S4194304x6 .f32) (i : Fin 4194304) :
    val_main_call0_v7 (F := Ideal) p (ix1 i)
      = Ideal.exp (p (ix2 i (0 : Fin 6)) - max (p (ix2 i (0 : Fin 6))) (p (ix2 i (1 : Fin 6))))
        + Ideal.exp (p (ix2 i (1 : Fin 6)) - max (p (ix2 i (0 : Fin 6))) (p (ix2 i (1 : Fin 6)))) := by
  have e : ∀ k : Fin 2, idx_main_call0_v7 (ix1 i) k = ix2 i k := fun k =>
    funext fun a => Fin.ext (by match a with | ⟨0, _⟩ => rfl | ⟨1, _⟩ => rfl)
  rw [val_main_call0_v7_apply, val_main_call0_cst_1_apply, Fin.sum_univ_two, e, e, val_main_call0_v6_apply,
    val_main_call0_v6_apply, shifted, shifted]
  show Ideal.ofBits .f32 0x00000000#32 + _ = _
  rw [Ideal.ofBits_zero_f32, zero_add]
  rfl

/-- The log-softmax at `(i, k)` is the log-probability of logit `k` of row `i`. -/
theorem logsoftmax (p : FVec Ideal S4194304x6 .f32) (i : Fin 4194304) (k : Fin 2) :
    val_main_v1 (F := Ideal) p (ix2 i k)
      = logp (p (ix2 i (0 : Fin 6))) (p (ix2 i (1 : Fin 6))) (p (ix2 i (col k))) := by
  have e : idx_main_call0_v8 (idx_main_call0_v10 (ix2 i k)) = ix1 i :=
    funext fun a => Fin.ext (by match a with | ⟨0, _⟩ => rfl)
  rw [val_main_v1_apply, shifted, val_main_call0_v10_apply, val_main_call0_v9_apply, val_main_call0_v8_apply, e,
    sumexp]
  rfl

/-! ### The class word, the pick and the negative log-likelihood -/

/-- The index array at `(i, 0, 0)` is row `i`'s normalised class word. -/
theorem pickidx (cw : IVec S4194304 32) (i : Fin 4194304) :
    val_main_call1_v5 (F := Ideal) cw (ix3 i (0 : Fin 1) (0 : Fin 1)) = normIdx (cw (ix1 i)) := by
  have e5 : idx_main_call1_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have e2 : idx_main_v2 (ix2 i (0 : Fin 1)) = ix1 i :=
    funext fun a => Fin.ext (by match a with | ⟨0, _⟩ => rfl)
  rw [val_main_call1_v5_apply, e5, val_main_call1_v4_apply, val_main_call1_v1_apply, val_main_call1_v3_apply,
    val_main_v2_apply, e2, val_main_call1_v0_apply, val_main_call1_c_apply, val_main_call1_v2_apply,
    val_main_call1_c_0_apply]
  rfl

/-- The pick's validity bit at `(i, 0)` is the range test of row `i`'s normalised class word. -/
theorem pickok (cw : IVec S4194304 32) (i : Fin 4194304) :
    val_main_call1_v12 (F := Ideal) cw (ix2 i (0 : Fin 1)) = inRange (normIdx (cw (ix1 i))) := by
  unfold val_main_call1_v12 val_main_call1_c_3
  rw [rowand_apply, val_main_call1_v11_apply, val_main_call1_v7_apply, val_main_call1_v10_apply, pickidx,
    val_main_call1_v6_apply, val_main_call1_c_2_apply, val_main_call1_v9_apply, val_main_call1_v8_apply,
    val_main_call1_c_1_apply]
  rfl

/-- The class column a start index addresses: the word read as a signed integer, clamped into `[0, 1]`. -/
def pickCol (v : BitVec 32) : Fin 2 := ⟨min v.toInt.toNat 1, by omega⟩

/-- The word `0` addresses the first logit. -/
theorem pickCol_zero : pickCol 0#32 = (0 : Fin 2) := by decide
/-- The word `1` addresses the second logit. -/
theorem pickCol_one : pickCol 1#32 = (1 : Fin 2) := by decide

/-- The picked entry at `(i, 0)` is the log-softmax of row `i` at the column its normalised class word addresses. -/
theorem picked (p : FVec Ideal S4194304x6 .f32) (cw : IVec S4194304 32) (i : Fin 4194304) :
    val_main_call1_v13 (F := Ideal) p cw (ix2 i (0 : Fin 1))
      = val_main_v1 (F := Ideal) p (ix2 i (pickCol (normIdx (cw (ix1 i))))) := by
  unfold val_main_call1_v13
  rw [gather_apply]
  simp only [pickidx]
  rfl

/-- Row `i`'s negated picked log-probability is its negative log-likelihood, when the row's logits are real
    numbers and its class word is `0` or `1`. -/
theorem nll_stage (p : FVec Ideal S4194304x6 .f32) (cw : IVec S4194304 32) (hp : AllFin p) (i : Fin 4194304)
    (hc : cw (ix1 i) = 0#32 ∨ cw (ix1 i) = 1#32) :
    val_main_v5 (F := Ideal) p cw (ix1 i) = nllAt p cw i := by
  have e4 : idx_main_v4 (ix1 i) = ix2 i (0 : Fin 1) :=
    funext fun a => Fin.ext (by
      match a with
      | ⟨0, _⟩ => show i.val / 1 = i.val; omega
      | ⟨1, _⟩ => rfl)
  rw [val_main_v5_apply, val_main_v4_apply, e4, val_main_v3_apply, pickok, picked]
  unfold nllAt
  rcases hc with h | h
  · rw [h, normIdx_zero, inRange_zero, select_one, pickCol_zero, logsoftmax]
    exact neg_logp_left (hp _) (hp _)
  · rw [h, normIdx_one, inRange_one, select_one, pickCol_one, logsoftmax]
    exact neg_logp_right (hp _) (hp _)

/-! ### The mask and the masked box error -/

/-- Row `i`'s mask. -/
theorem mask_stage (cw : IVec S4194304 32) (i : Fin 4194304) (hc : cw (ix1 i) = 0#32 ∨ cw (ix1 i) = 1#32) :
    val_main_v10 (F := Ideal) cw (ix1 i) = maskAt cw i := by
  rw [val_main_v10_apply, val_main_v9_apply, val_main_v8_apply, val_main_c_apply]
  exact mask_word _ hc

/-- Row `i`'s masked mean squared box error. -/
theorem box_stage (p : FVec Ideal S4194304x6 .f32) (cw : IVec S4194304 32) (bx : FVec Ideal S4194304x4 .f32)
    (i : Fin 4194304) (hc : cw (ix1 i) = 0#32 ∨ cw (ix1 i) = 1#32) :
    val_main_v17 (F := Ideal) p cw bx (ix1 i) = boxAt p cw bx i := by
  have e14 : ∀ k : Fin 4, idx_main_v14 (ix1 i) k = ix2 i k := fun k =>
    funext fun a => Fin.ext (by match a with | ⟨0, _⟩ => rfl | ⟨1, _⟩ => rfl)
  have e11 : ∀ k : Fin 4, idx_main_v11 (ix2 i k) = ix2 i (boxCol k) := fun k =>
    funext fun a => Fin.ext (by
      match a with
      | ⟨0, _⟩ => rfl
      | ⟨1, _⟩ => show 2 + k.val = k.val + 2; omega)
  have hterm : ∀ k : Fin 4, val_main_v13 (F := Ideal) p bx (idx_main_v14 (ix1 i) k)
      = (p (ix2 i (boxCol k)) - bx (ix2 i k)) * (p (ix2 i (boxCol k)) - bx (ix2 i k)) := fun k => by
    rw [e14, val_main_v13_apply, val_main_v12_apply, val_main_v11_apply, e11]
    rfl
  rw [val_main_v17_apply, val_main_v16_apply, val_main_v14_apply, val_main_cst_1_apply, val_main_v15_apply,
    val_main_cst_2_apply, mask_stage cw i hc]
  simp only [hterm]
  unfold boxAt
  exact congrArg (· * maskAt cw i) (mse_row (fun k => p (ix2 i k)) (fun j => bx (ix2 i j)))

/-! ### The three sums and the closing arithmetic -/

/-- The summed negative log-likelihoods. -/
theorem sum_nll (p : FVec Ideal S4194304x6 .f32) (cw : IVec S4194304 32) (hp : AllFin p)
    (hc : ∀ j, cw j = 0#32 ∨ cw j = 1#32) :
    val_main_v6 (F := Ideal) p cw = fun _ => ∑ i : Fin 4194304, nllAt p cw i := by
  funext j
  rw [val_main_v6_apply, val_main_cst_apply]
  show Ideal.ofBits .f32 0x00000000#32 + _ = _
  rw [Ideal.ofBits_zero_f32, zero_add, sum_idx1]
  exact Finset.sum_congr rfl fun i _ => nll_stage p cw hp i (hc _)

/-- The summed masked box errors. -/
theorem sum_box (p : FVec Ideal S4194304x6 .f32) (cw : IVec S4194304 32) (bx : FVec Ideal S4194304x4 .f32)
    (hc : ∀ j, cw j = 0#32 ∨ cw j = 1#32) :
    val_main_v18 (F := Ideal) p cw bx = fun _ => ∑ i : Fin 4194304, boxAt p cw bx i := by
  funext j
  rw [val_main_v18_apply, val_main_cst_3_apply]
  show Ideal.ofBits .f32 0x00000000#32 + _ = _
  rw [Ideal.ofBits_zero_f32, zero_add, sum_idx1]
  exact Finset.sum_congr rfl fun i _ => box_stage p cw bx i (hc _)

/-- The summed masks. -/
theorem sum_mask (cw : IVec S4194304 32) (hc : ∀ j, cw j = 0#32 ∨ cw j = 1#32) :
    val_main_v19 (F := Ideal) cw = fun _ => ∑ i : Fin 4194304, maskAt cw i := by
  funext j
  rw [val_main_v19_apply, val_main_cst_4_apply]
  show Ideal.ofBits .f32 0x00000000#32 + _ = _
  rw [Ideal.ofBits_zero_f32, zero_add, sum_idx1]
  exact Finset.sum_congr rfl fun i _ => mask_stage cw i (hc _)

/-- The reference's last stage is the head loss of its arguments. -/
theorem stage_total (p : FVec Ideal S4194304x6 .f32) (cw : IVec S4194304 32) (bx : FVec Ideal S4194304x4 .f32)
    (hp : AllFin p) (hc : ∀ j, cw j = 0#32 ∨ cw j = 1#32) :
    val_main_v23 (F := Ideal) p cw bx = total p cw bx := by
  unfold val_main_v23 val_main_v7 val_main_v22 val_main_v21 val_main_v20
  rw [sum_nll p cw hp hc, sum_box p cw bx hc, sum_mask cw hc]
  rfl

/-! ### The interface -/

/-- Under the precondition the reference's result term is the head loss of its three argument arrays. -/
theorem ref_value (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2)) = fun _ => 1#1) :
    (Cert.ReferenceIdeal.Value.res_out0 (F := Ideal) m c : FVec Ideal SScalar .f32)
      = total (m ((c.tc : Thread nD τ).loc main_arg0)) (m ((c.tc : Thread nD τ).loc main_arg1))
          (m ((c.tc : Thread nD τ).loc main_arg2)) := by
  obtain ⟨hp, _, hc⟩ := pre_decode _ _ _ hpre
  exact (val_main_v23_eq (F := Ideal) m c).trans (stage_total _ _ _ hp hc)

end Cert.HeadLoss.RefValue

end
-- ==== Proof.lean ====
/-
  A detection-head loss: the kernel against its jnp reference, over the extended reals.

  Both programs compute, from a prediction array (4194304 rows: two class logits, four box coordinates), a class word
  per row and a target box per row,
      (∑ nll) / 4194304 + 10 · (∑ mse · mask) / (10⁻⁶ + ∑ mask),
  the sums over all rows (`Cert.HeadLoss.total`, Proof/Spec.lean): `nll` the negative log-probability of the row's
  class under the two-class softmax of its logits, `mse` the mean of its four squared box differences, `mask` one
  exactly when the class word is not zero.

  The kernel walks the rows as 2 × 512 tiles of 4096, keeps three running sums per half in accumulators it carries from
  tile to tile, writes each half's totals out after its last tile, and the host adds the two halves and closes the
  formula (Proof/Pieces.lean: what one tile leaves; Proof/Payload.lean: the tile's arithmetic read at an index;
  Proof/Sums.lean: the regrouping of the sum over all rows; Proof/KernelValue.lean: the induction over the tiles, the
  output arrays, the closing lines). Nothing on this side needs the inputs finite: only sums are regrouped.

  The reference takes the log-softmax row by row and picks the class word's entry by indexing: that is the kernel's
  choice "class word zero or not" exactly when the word is `0` or `1`, which is the label range the precondition
  states beside the finiteness of the two float arrays; and `(l - m) - L = l - (m + L)`, the one place the two programs
  group a row's arithmetic differently, holds for real numbers (Proof/PreDecode.lean, Proof/RefRow.lean,
  Proof/RefStages.lean, Proof/RefValue.lean).

  The ideal pass rewrote nothing, so `preserves` is `True`; the three frames are the generated frame certificates and
  the reference's run with its result dropped.
-/
import proofs.«427612_j49185965473872_3_alg».proof.Defs
import proofs.«427612_j49185965473872_3_alg».proof.Proof.Gen.Kernel
import proofs.«427612_j49185965473872_3_alg».proof.Proof.Gen.Kernel.Frame
import proofs.«427612_j49185965473872_3_alg».proof.Proof.Gen.KernelIdeal
import proofs.«427612_j49185965473872_3_alg».proof.Proof.Gen.KernelIdeal.Frame
import proofs.«427612_j49185965473872_3_alg».proof.Proof.Gen.ReferenceIdeal
import proofs.«427612_j49185965473872_3_alg».proof.Proof.Gen.Pre_finite_inputs
import proofs.«427612_j49185965473872_3_alg».proof.Proof.KernelValue
import proofs.«427612_j49185965473872_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the head loss of the kernel's argument arrays: the kernel's by the
    induction over its tiles, the reference's by its stages read row by row, under the precondition carried over
    the arguments' agreement. -/
theorem algebraic : Cert.algebraic_KernelIdeal_ReferenceIdeal := by
  intro m ρ m' ρ' hpre hagree
  refine ⟨fun c => Cert.HeadLoss.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.HeadLoss.KernelValue.kernel_run m ρ, ?_⟩
  refine (θ_run Cert.ReferenceIdeal.defs _ _).mono (fun _ h c => ⟨(h c).1.trans ?_, (h c).2⟩)
    (Cert.ReferenceIdeal.Value.run (F := Ideal) m' ρ')
  have hp := hpre c
  rw [← (hagree c).1, ← (hagree c).2.1, ← (hagree c).2.2] at hp
  show _ = Cert.HeadLoss.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
  rw [← (hagree c).1, ← (hagree c).2.1, ← (hagree c).2.2]
  exact Cert.HeadLoss.RefValue.ref_value m' c hp

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
